-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256x64 : Shape := ⟨4, ![16, 256, 256, 64]⟩
abbrev S16x256x256 : Shape := ⟨3, ![16, 256, 256]⟩
abbrev S64x9 : Shape := ⟨2, ![64, 9]⟩
abbrev S64 : Shape := ⟨1, ![64]⟩
abbrev S_ : Shape := ⟨0, ![]⟩

class Facts : Prop where
  bcast_S_S16x256x256x64 : S_.BroadcastsInDim S16x256x256x64 (![] : Fin 0 → Fin S16x256x256x64.rank)
  reducesTo_S16x256x256x64_S_d0_1_2_3 : S16x256x256x64.ReducesTo [0, 1, 2, 3] S_
  h_S_ : 0 < S_.numel
  bcast_S_S16x256x256 : S_.BroadcastsInDim S16x256x256 (![] : Fin 0 → Fin S16x256x256.rank)
  reducesTo_S16x256x256_S_d0_1_2 : S16x256x256.ReducesTo [0, 1, 2] S_
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x9 .f32) (main_arg5 : FVec F S64 .f32) (main_v13 : IVec S_ 1) (main_v16 : IVec S64x9 1) : IVec S_ 1 :=
  let main_c_5 : IVec S_ 1 := constantI S_ 1 1#1
  let main_v17 : IVec S_ 1 := (fun x v => Host.reduce IntOp.andi x v reducesTo_S64x9_S_d0_1 h_S_) main_v16 main_c_5
  let main_v18 : IVec S_ 1 := andi main_v13 main_v17
  let main_v19 : FVec F S64x9 .f32 := Host.absf main_arg4
  let main_cst_6 : FVec F S_ .f32 := constant S_ .f32 0x7F800000#32
  let main_v20 : FVec F S64x9 .f32 := broadcastInDim S64x9 ![] bcast_S_S64x9 main_cst_6
  let main_v21 : IVec S64x9 1 := cmpf .olt main_v19 main_v20
  let main_c_7 : IVec S_ 1 := constantI S_ 1 1#1
  let main_v22 : IVec S_ 1 := (fun x v => Host.reduce IntOp.andi x v reducesTo_S64x9_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x256x256x64 .f32) (main_arg1 : FVec F S16x256x256 .f32) (main_arg2 : FVec F S16x256x256 .f32) (main_arg3 : FVec F S64x9 .f32) (main_arg4 : FVec F S64x9 .f32) (main_arg5 : FVec F S64 .f32) : IVec S_ 1 :=
  let main_v0 : FVec F S16x256x256x64 .f32 := Host.absf main_arg0
  let main_cst : FVec F S_ .f32 := constant S_ .f32 0x7F800000#32
  let main_v1 : FVec F S16x256x256x64 .f32 := broadcastInDim S16x256x256x64 ![] bcast_S_S16x256x256x64 main_cst
  let main_v2 : IVec S16x256x256x64 1 := cmpf .olt main_v0 main_v1
  let main_c : IVec S_ 1 := constantI S_ 1 1#1
  let main_v3 : IVec S_ 1 := (fun x v => Host.reduce IntOp.andi x v reducesTo_S16x256x256x64_S_d0_1_2_3 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S16x256x256 .f32 := Host.absf main_arg2
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  let main_v14 : FVec F S64x9 .f32 := Host.absf main_arg3
  let main_cst_4 : FVec F S_ .f32 := constant S_ .f32 0x7F800000#32
  let main_v15 : FVec F S64x9 .f32 := broadcastInDim S64x9 ![] bcast_S_S64x9 main_cst_4
  let main_v16 : IVec S64x9 1 := cmpf .olt main_v14 main_v15
  fn_part1 (F := F) main_arg4 main_arg5 main_v13 main_v16
-- ==== Kernel.lean ====
abbrev S16x256x256x64 : Shape := ⟨4, ![16, 256, 256, 64]⟩
abbrev S16x256x256 : Shape := ⟨3, ![16, 256, 256]⟩
abbrev S64x9 : Shape := ⟨2, ![64, 9]⟩
abbrev S64 : Shape := ⟨1, ![64]⟩
abbrev S4096x256x64 : Shape := ⟨3, ![4096, 256, 64]⟩
abbrev S4096x256 : Shape := ⟨2, ![4096, 256]⟩
abbrev S64x256x64 : Shape := ⟨3, ![64, 256, 64]⟩
abbrev S64x256 : Shape := ⟨2, ![64, 256]⟩
abbrev S1x64x9 : Shape := ⟨3, ![1, 64, 9]⟩
abbrev S8x64x9 : Shape := ⟨3, ![8, 64, 9]⟩
abbrev S8x256 : Shape := ⟨2, ![8, 256]⟩
abbrev S8x256x1 : Shape := ⟨3, ![8, 256, 1]⟩
abbrev S8x256x9 : Shape := ⟨3, ![8, 256, 9]⟩
abbrev S8x256x64 : Shape := ⟨3, ![8, 256, 64]⟩
abbrev S1x1x64 : Shape := ⟨3, ![1, 1, 64]⟩

abbrev nBuf : Space → Nat
  | .hbm => 11
  | .vmem => 11
  | .smem => 0
  | _ => 0

abbrev bufTy : (tb : Table) → Fin (tcTables nBuf tb) → BufTy
  | .hbm, ⟨0, _⟩ => ⟨S16x256x256x64, .f32⟩
  | .hbm, ⟨1, _⟩ => ⟨S16x256x256, .f32⟩
  | .hbm, ⟨2, _⟩ => ⟨S16x256x256, .f32⟩
  | .hbm, ⟨3, _⟩ => ⟨S64x9, .f32⟩
  | .hbm, ⟨4, _⟩ => ⟨S64x9, .f32⟩
  | .hbm, ⟨5, _⟩ => ⟨S64, .f32⟩
  | .hbm, ⟨6, _⟩ => ⟨S4096x256x64, .f32⟩
  | .hbm, ⟨7, _⟩ => ⟨S4096x256, .f32⟩
  | .hbm, ⟨8, _⟩ => ⟨S4096x256, .f32⟩
  | .hbm, ⟨9, _⟩ => ⟨S4096x256x64, .f32⟩
  | .hbm, ⟨10, _⟩ => ⟨S16x256x256x64, .f32⟩
  | .local _ .vmem, ⟨0, _⟩ => ⟨S64x256x64, .f32⟩
  | .local _ .vmem, ⟨1, _⟩ => ⟨S64x256x64, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S64x9, .f32⟩
  | .local _ .vmem, ⟨7, _⟩ => ⟨S64x9, .f32⟩
  | .local _ .vmem, ⟨8, _⟩ => ⟨S64, .f32⟩
  | .local _ .vmem, ⟨9, _⟩ => ⟨S64x256x64, .f32⟩
  | .local _ .vmem, ⟨10, _⟩ => ⟨S64x256x64, .f32⟩
  | _, _ => ⟨S16x256x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c8_i32_5 : BitVec 32 := 8#32
  let v10 : BitVec 32 := Scalar.muli arg8 c8_i32_5
  v10
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c8_i32_5 : BitVec 32 := 8#32
  let v10 : BitVec 32 := Scalar.muli arg8 c8_i32_5
  let v11 : BitVec 32 := v10
  let v12 : Index := Scalar.indexCast v11
  let c0_6 : Index := 0#32
  ![v12.toNat, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let c8_i32_5 : BitVec 32 := 8#32
  let v10 : BitVec 32 := Scalar.muli arg8 c8_i32_5
  let v11 : BitVec 32 := v10
  let v155 : Index := Scalar.indexCast v11
  let c0_53 : Index := 0#32
  let c0_54 : Index := 0#32
  ![v155.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S16x256x256x64_S4096x256x64 : S16x256x256x64.ShapeCasts S4096x256x64
  shapeCasts_S16x256x256_S4096x256 : S16x256x256.ShapeCasts S4096x256
  inb_S64x9_S64x9_0_0 : ∀ a, (![0, 0] : Fin 2 → Nat) a + S64x9.size a ≤ S64x9.size a
  h_S64x9 : 0 < S64x9.numel
  inb_S64_S64_0 : ∀ a, (![0] : Fin 1 → Nat) a + S64.size a ≤ S64.size a
  h_S64 : 0 < S64.numel
  shapeCasts_S64x9_S1x64x9 : S64x9.ShapeCasts S1x64x9
  shapeCasts_S1x64x9_S1x64x9 : S1x64x9.ShapeCasts S1x64x9
  broadcasts_S1x64x9_S8x64x9 : S1x64x9.Broadcasts S8x64x9
  h_S8x256 : 0 < S8x256.numel
  shapeCasts_S8x256_S8x256 : S8x256.ShapeCasts S8x256
  shapeCasts_S8x256_S8x256x1 : S8x256.ShapeCasts S8x256x1
  concatenates_S8x256x1_S8x256x1_S8x256x1_S8x256x1_S8x256x1_S8x256x1_S8x256x1_S8x256x1_S8x256x1_S8x256x9_d2 : Shape.Concatenates [S8x256x1, S8x256x1, S8x256x1, S8x256x1, S8x256x1, S8x256x1, S8x256x1, S8x256x1, S8x256x1] S8x256x9 2
  h_S8x256x64 : 0 < S8x256x64.numel
  shapeCasts_S8x256x64_S8x256x64 : S8x256x64.ShapeCasts S8x256x64
  shapeCasts_S64_S1x1x64 : S64.ShapeCasts S1x1x64
  broadcasts_S1x1x64_S8x256x64 : S1x1x64.Broadcasts S8x256x64
  shapeCasts_S4096x256x64_S16x256x256x64 : S4096x256x64.ShapeCasts S16x256x256x64
  dot_S8x256x9_S8x64x9_S8x256x64_2_2_1_1_0_0_wf : DotDims.WF S8x256x9 S8x64x9 S8x256x64 [2] [2] [1] [1] [0] [0]
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S8x256.size a ≤ S64x256.size a
  k0_off2_inb : ∀ k0_t1 : Fin k0_t1_loop.trips, ∀ a, (k0_off2 k0_t1) a + S8x256x64.size a ≤ S64x256x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x256x64.size a ≤ S4096x256x64.size a
  hwx0_0 : ∀ i : grid0.Coords, EltTy.bits .f32 = 32 ∨ (Rect.block (s := S4096x256x64) S64x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S4096x256.size a
  hwx0_1 : ∀ i : grid0.Coords, EltTy.bits .f32 = 32 ∨ (Rect.block (s := S4096x256) S64x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S4096x256.size a
  hwx0_2 : ∀ i : grid0.Coords, EltTy.bits .f32 = 32 ∨ (Rect.block (s := S4096x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x9.size a ≤ S64x9.size a
  hwx0_3 : ∀ i : grid0.Coords, EltTy.bits .f32 = 32 ∨ (Rect.block (s := S64x9) S64x9.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x9.size a ≤ S64x9.size a
  hwx0_4 : ∀ i : grid0.Coords, EltTy.bits .f32 = 32 ∨ (Rect.block (s := S64x9) S64x9.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x256x64.size a ≤ S4096x256x64.size a
  hwx0_6 : ∀ i : grid0.Coords, EltTy.bits .f32 = 32 ∨ (Rect.block (s := S4096x256x64) S64x256x64.size (cc0_transform_6 i) (hinb0_6 i)).WholeWords (EltTy.packing .f32)

variable [Facts₀]

def dot_S8x256x9_S8x64x9_S8x256x64_2_2_1_1_0_0 : DotDims S8x256x9 S8x64x9 S8x256x64 where
  lhsContracting := [2]
  rhsContracting := [2]
  lhsNonContracting := [1]
  rhsNonContracting := [1]
  lhsBatch := [0]
  rhsBatch := [0]
  wf := dot_S8x256x9_S8x64x9_S8x256x64_2_2_1_1_0_0_wf

abbrev win0_0 : Pipeline.Window sig grid0 :=
  Pipeline.Window.ofSpec (Memref.whole main_v0) S64x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x9.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S64x256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x256x256x64 : Shape := ⟨4, ![16, 256, 256, 64]⟩
abbrev S16x256x256 : Shape := ⟨3, ![16, 256, 256]⟩
abbrev S64x9 : Shape := ⟨2, ![64, 9]⟩
abbrev S64 : Shape := ⟨1, ![64]⟩
abbrev S_ : Shape := ⟨0, ![]⟩
abbrev S16x256x256x1 : Shape := ⟨4, ![16, 256, 256, 1]⟩
abbrev S16x256x256x9 : Shape := ⟨4, ![16, 256, 256, 9]⟩
abbrev S1x1x1x64 : Shape := ⟨4, ![1, 1, 1, 64]⟩

abbrev nBuf : Space → Nat
  | .hbm => 192
  | .vmem => 0
  | .smem => 0
  | _ => 0

abbrev hbmTy0_0 (i : Nat) : BufTy := match i % 128 with
  | 0 => ⟨S16x256x256x64, .f32⟩
  | 1 => ⟨S16x256x256, .f32⟩
  | 2 => ⟨S16x256x256, .f32⟩
  | 3 => ⟨S64x9, .f32⟩
  | 4 => ⟨S64x9, .f32⟩
  | 5 => ⟨S64, .f32⟩
  | 6 => ⟨S_, .f32⟩
  | 7 => ⟨S16x256x256, .f32⟩
  | 8 => ⟨S_, .f32⟩
  | 9 => ⟨S16x256x256, .f32⟩
  | 10 => ⟨S16x256x256, .f32⟩
  | 11 => ⟨S16x256x256, .f32⟩
  | 12 => ⟨S_, .f32⟩
  | 13 => ⟨S16x256x256, .f32⟩
  | 14 => ⟨S16x256x256, .f32⟩
  | 15 => ⟨S16x256x256, .f32⟩
  | 16 => ⟨S_, .f32⟩
  | 17 => ⟨S16x256x256, .f32⟩
  | 18 => ⟨S16x256x256, .f32⟩
  | 19 => ⟨S_, .f32⟩
  | 20 => ⟨S16x256x256, .f32⟩
  | 21 => ⟨S16x256x256, .f32⟩
  | 22 => ⟨S16x256x256, .f32⟩
  | 23 => ⟨S_, .f32⟩
  | 24 => ⟨S16x256x256, .f32⟩
  | 25 => ⟨S16x256x256, .f32⟩
  | 26 => ⟨S16x256x256, .f32⟩
  | 27 => ⟨S_, .f32⟩
  | 28 => ⟨S16x256x256, .f32⟩
  | 29 => ⟨S16x256x256, .f32⟩
  | 30 => ⟨S_, .f32⟩
  | 31 => ⟨S16x256x256, .f32⟩
  | 32 => ⟨S16x256x256, .f32⟩
  | 33 => ⟨S16x256x256, .f32⟩
  | 34 => ⟨S_, .f32⟩
  | 35 => ⟨S16x256x256, .f32⟩
  | 36 => ⟨S16x256x256, .f32⟩
  | 37 => ⟨S16x256x256, .f32⟩
  | 38 => ⟨S_, .f32⟩
  | 39 => ⟨S16x256x256, .f32⟩
  | 40 => ⟨S16x256x256, .f32⟩
  | 41 => ⟨S_, .f32⟩
  | 42 => ⟨S16x256x256, .f32⟩
  | 43 => ⟨S16x256x256, .f32⟩
  | 44 => ⟨S16x256x256, .f32⟩
  | 45 => ⟨S_, .f32⟩
  | 46 => ⟨S16x256x256, .f32⟩
  | 47 => ⟨S16x256x256, .f32⟩
  | 48 => ⟨S16x256x256, .f32⟩
  | 49 => ⟨S_, .f32⟩
  | 50 => ⟨S16x256x256, .f32⟩
  | 51 => ⟨S16x256x256, .f32⟩
  | 52 => ⟨S_, .f32⟩
  | 53 => ⟨S16x256x256, .f32⟩
  | 54 => ⟨S16x256x256, .f32⟩
  | 55 => ⟨S16x256x256, .f32⟩
  | 56 => ⟨S_, .f32⟩
  | 57 => ⟨S16x256x256, .f32⟩
  | 58 => ⟨S16x256x256, .f32⟩
  | 59 => ⟨S16x256x256, .f32⟩
  | 60 => ⟨S_, .f32⟩
  | 61 => ⟨S16x256x256, .f32⟩
  | 62 => ⟨S16x256x256, .f32⟩
  | 63 => ⟨S_, .f32⟩
  | 64 => ⟨S16x256x256, .f32⟩
  | 65 => ⟨S16x256x256, .f32⟩
  | 66 => ⟨S16x256x256, .f32⟩
  | 67 => ⟨S_, .f32⟩
  | 68 => ⟨S16x256x256, .f32⟩
  | 69 => ⟨S16x256x256, .f32⟩
  | 70 => ⟨S16x256x256, .f32⟩
  | 71 => ⟨S_, .f32⟩
  | 72 => ⟨S16x256x256, .f32⟩
  | 73 => ⟨S16x256x256, .f32⟩
  | 74 => ⟨S_, .f32⟩
  | 75 => ⟨S16x256x256, .f32⟩
  | 76 => ⟨S16x256x256, .f32⟩
  | 77 => ⟨S16x256x256, .f32⟩
  | 78 => ⟨S_, .f32⟩
  | 79 => ⟨S16x256x256, .f32⟩
  | 80 => ⟨S16x256x256, .f32⟩
  | 81 => ⟨S16x256x256, .f32⟩
  | 82 => ⟨S_, .f32⟩
  | 83 => ⟨S16x256x256, .f32⟩
  | 84 => ⟨S16x256x256, .f32⟩
  | 85 => ⟨S16x256x256x1, .f32⟩
  | 86 => ⟨S16x256x256x1, .f32⟩
  | 87 => ⟨S16x256x256x1, .f32⟩
  | 88 => ⟨S16x256x256x1, .f32⟩
  | 89 => ⟨S16x256x256x1, .f32⟩
  | 90 => ⟨S16x256x256x1, .f32⟩
  | 91 => ⟨S16x256x256x1, .f32⟩
  | 92 => ⟨S16x256x256x1, .f32⟩
  | 93 => ⟨S16x256x256x1, .f32⟩
  | 94 => ⟨S16x256x256x9, .f32⟩
  | 95 => ⟨S_, .f32⟩
  | 96 => ⟨S16x256x256, .f32⟩
  | 97 => ⟨S_, .f32⟩
  | 98 => ⟨S16x256x256, .f32⟩
  | 99 => ⟨S16x256x256, .f32⟩
  | 100 => ⟨S16x256x256, .f32⟩
  | 101 => ⟨S_, .f32⟩
  | 102 => ⟨S16x256x256, .f32⟩
  | 103 => ⟨S16x256x256, .f32⟩
  | 104 => ⟨S16x256x256, .f32⟩
  | 105 => ⟨S_, .f32⟩
  | 106 => ⟨S16x256x256, .f32⟩
  | 107 => ⟨S16x256x256, .f32⟩
  | 108 => ⟨S_, .f32⟩
  | 109 => ⟨S16x256x256, .f32⟩
  | 110 => ⟨S16x256x256, .f32⟩
  | 111 => ⟨S16x256x256, .f32⟩
  | 112 => ⟨S_, .f32⟩
  | 113 => ⟨S16x256x256, .f32⟩
  | 114 => ⟨S16x256x256, .f32⟩
  | 115 => ⟨S16x256x256, .f32⟩
  | 116 => ⟨S_, .f32⟩
  | 117 => ⟨S16x256x256, .f32⟩
  | 118 => ⟨S16x256x256, .f32⟩
  | 119 => ⟨S_, .f32⟩
  | 120 => ⟨S16x256x256, .f32⟩
  | 121 => ⟨S16x256x256, .f32⟩
  | 122 => ⟨S16x256x256, .f32⟩
  | 123 => ⟨S_, .f32⟩
  | 124 => ⟨S16x256x256, .f32⟩
  | 125 => ⟨S16x256x256, .f32⟩
  | 126 => ⟨S16x256x256, .f32⟩
  | 127 => ⟨S_, .f32⟩
  | _ => ⟨S16x256x256x64, .f32⟩

abbrev hbmTy0_1 (i : Nat) : BufTy := match i % 128 with
  | 0 => ⟨S16x256x256, .f32⟩
  | 1 => ⟨S16x256x256, .f32⟩
  | 2 => ⟨S_, .f32⟩
  | 3 => ⟨S16x256x256, .f32⟩
  | 4 => ⟨S16x256x256, .f32⟩
  | 5 => ⟨S16x256x256, .f32⟩
  | 6 => ⟨S_, .f32⟩
  | 7 => ⟨S16x256x256, .f32⟩
  | 8 => ⟨S16x256x256, .f32⟩
  | 9 => ⟨S16x256x256, .f32⟩
  | 10 => ⟨S_, .f32⟩
  | 11 => ⟨S16x256x256, .f32⟩
  | 12 => ⟨S16x256x256, .f32⟩
  | 13 => ⟨S_, .f32⟩
  | 14 => ⟨S16x256x256, .f32⟩
  | 15 => ⟨S16x256x256, .f32⟩
  | 16 => ⟨S16x256x256, .f32⟩
  | 17 => ⟨S_, .f32⟩
  | 18 => ⟨S16x256x256, .f32⟩
  | 19 => ⟨S16x256x256, .f32⟩
  | 20 => ⟨S16x256x256, .f32⟩
  | 21 => ⟨S_, .f32⟩
  | 22 => ⟨S16x256x256, .f32⟩
  | 23 => ⟨S16x256x256, .f32⟩
  | 24 => ⟨S_, .f32⟩
  | 25 => ⟨S16x256x256, .f32⟩
  | 26 => ⟨S16x256x256, .f32⟩
  | 27 => ⟨S16x256x256, .f32⟩
  | 28 => ⟨S_, .f32⟩
  | 29 => ⟨S16x256x256, .f32⟩
  | 30 => ⟨S16x256x256, .f32⟩
  | 31 => ⟨S16x256x256, .f32⟩
  | 32 => ⟨S_, .f32⟩
  | 33 => ⟨S16x256x256, .f32⟩
  | 34 => ⟨S16x256x256, .f32⟩
  | 35 => ⟨S_, .f32⟩
  | 36 => ⟨S16x256x256, .f32⟩
  | 37 => ⟨S16x256x256, .f32⟩
  | 38 => ⟨S16x256x256, .f32⟩
  | 39 => ⟨S_, .f32⟩
  | 40 => ⟨S16x256x256, .f32⟩
  | 41 => ⟨S16x256x256, .f32⟩
  | 42 => ⟨S16x256x256, .f32⟩
  | 43 => ⟨S_, .f32⟩
  | 44 => ⟨S16x256x256, .f32⟩
  | 45 => ⟨S16x256x256, .f32⟩
  | 46 => ⟨S16x256x256x1, .f32⟩
  | 47 => ⟨S16x256x256x1, .f32⟩
  | 48 => ⟨S16x256x256x1, .f32⟩
  | 49 => ⟨S16x256x256x1, .f32⟩
  | 50 => ⟨S16x256x256x1, .f32⟩
  | 51 => ⟨S16x256x256x1, .f32⟩
  | 52 => ⟨S16x256x256x1, .f32⟩
  | 53 => ⟨S16x256x256x1, .f32⟩
  | 54 => ⟨S16x256x256x1, .f32⟩
  | 55 => ⟨S16x256x256x9, .f32⟩
  | 56 => ⟨S16x256x256x64, .f32⟩
  | 57 => ⟨S16x256x256x64, .f32⟩
  | 58 => ⟨S16x256x256x64, .f32⟩
  | 59 => ⟨S16x256x256x64, .f32⟩
  | 60 => ⟨S1x1x1x64, .f32⟩
  | 61 => ⟨S16x256x256x64, .f32⟩
  | 62 => ⟨S16x256x256x64, .f32⟩
  | 63 => ⟨S16x256x256x64, .f32⟩
  | _ => ⟨S16x256x256x64, .f32⟩

abbrev hbmTy (i : Nat) : BufTy := match i / 128 with
  | 0 => hbmTy0_0 i
  | 1 => hbmTy0_1 i
  | _ => ⟨S16x256x256x64, .f32⟩

abbrev bufTy : (tb : Table) → Fin (tcTables nBuf tb) → BufTy
  | .hbm, ⟨i, _⟩ => hbmTy i
  | _, _ => ⟨S16x256x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_11 : Ref sig .tc := ⟨.hbm, 49, rfl⟩
abbrev main_v31 : Ref sig .tc := ⟨.hbm, 50, rfl⟩
abbrev main_v32 : Ref sig .tc := ⟨.hbm, 51, rfl⟩
abbrev main_cst_12 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_13 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_14 : Ref sig .tc := ⟨.hbm, 60, rfl⟩
abbrev main_v39 : Ref sig .tc := ⟨.hbm, 61, rfl⟩
abbrev main_v40 : Ref sig .tc := ⟨.hbm, 62, rfl⟩
abbrev main_cst_15 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_16 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_17 : Ref sig .tc := ⟨.hbm, 71, rfl⟩
abbrev main_v47 : Ref sig .tc := ⟨.hbm, 72, rfl⟩
abbrev main_v48 : Ref sig .tc := ⟨.hbm, 73, rfl⟩
abbrev main_cst_18 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_19 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_20 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_cst_22 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_23 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_24 : Ref sig .tc := ⟨.hbm, 105, rfl⟩
abbrev main_v74 : Ref sig .tc := ⟨.hbm, 106, rfl⟩
abbrev main_v75 : Ref sig .tc := ⟨.hbm, 107, rfl⟩
abbrev main_cst_25 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_26 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_27 : Ref sig .tc := ⟨.hbm, 116, rfl⟩
abbrev main_v82 : Ref sig .tc := ⟨.hbm, 117, rfl⟩
abbrev main_v83 : Ref sig .tc := ⟨.hbm, 118, rfl⟩
abbrev main_cst_28 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_29 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_30 : Ref sig .tc := ⟨.hbm, 127, rfl⟩
abbrev main_v90 : Ref sig .tc := ⟨.hbm, 128, rfl⟩
abbrev main_v91 : Ref sig .tc := ⟨.hbm, 129, rfl⟩
abbrev main_cst_31 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_32 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_33 : Ref sig .tc := ⟨.hbm, 138, rfl⟩
abbrev main_v98 : Ref sig .tc := ⟨.hbm, 139, rfl⟩
abbrev main_v99 : Ref sig .tc := ⟨.hbm, 140, rfl⟩
abbrev main_cst_34 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_35 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_cst_36 : Ref sig .tc := ⟨.hbm, 149, rfl⟩
abbrev main_v106 : Ref sig .tc := ⟨.hbm, 150, rfl⟩
abbrev main_v107 : Ref sig .tc := ⟨.hbm, 151, rfl⟩
abbrev main_cst_37 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_38 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_39 : Ref sig .tc := ⟨.hbm, 160, rfl⟩
abbrev main_v114 : Ref sig .tc := ⟨.hbm, 161, rfl⟩
abbrev main_v115 : Ref sig .tc := ⟨.hbm, 162, rfl⟩
abbrev main_cst_40 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_cst_41 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_42 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩

abbrev nD : Nat := 1
abbrev τ : Topo := Topo.v7x

variable {F : FTy → Type} [FloatOps F]

class Facts₀ : Prop where
  bcast_S_S16x256x256 : S_.BroadcastsInDim S16x256x256 (![] : Fin 0 → Fin S16x256x256.rank)
  bcast_S16x256x256_S16x256x256x1_0_1_2 : S16x256x256.BroadcastsInDim S16x256x256x1 (![0, 1, 2] : Fin 3 → Fin S16x256x256x1.rank)
  concatenates_S16x256x256x1_S16x256x256x1_S16x256x256x1_S16x256x256x1_S16x256x256x1_S16x256x256x1_S16x256x256x1_S16x256x256x1_S16x256x256x1_S16x256x256x9_d3 : Shape.Concatenates [S16x256x256x1, S16x256x256x1, S16x256x256x1, S16x256x256x1, S16x256x256x1, S16x256x256x1, S16x256x256x1, S16x256x256x1, S16x256x256x1] S16x256x256x9 3
  bcast_S64_S1x1x1x64_3 : S64.BroadcastsInDim S1x1x1x64 (![3] : Fin 1 → Fin S1x1x1x64.rank)
  bcast_S1x1x1x64_S16x256x256x64_0_1_2_3 : S1x1x1x64.BroadcastsInDim S16x256x256x64 (![0, 1, 2, 3] : Fin 4 → Fin S16x256x256x64.rank)
  dot_S16x256x256x9_S64x9_S16x256x256x64_3_1_012_0_n_n_wf : DotDims.WF S16x256x256x9 S64x9 S16x256x256x64 [3] [1] [0, 1, 2] [0] [] []

variable [Facts₀]

def dot_S16x256x256x9_S64x9_S16x256x256x64_3_1_012_0_n_n : DotDims S16x256x256x9 S64x9 S16x256x256x64 where
  lhsContracting := [3]
  rhsContracting := [1]
  lhsNonContracting := [0, 1, 2]
  rhsNonContracting := [0]
  lhsBatch := []
  rhsBatch := []
  wf := dot_S16x256x256x9_S64x9_S16x256x256x64_3_1_012_0_n_n_wf

class Facts : Prop extends Facts₀ where

variable [Facts]
-- ==== Proof.Spec.lean ====
/-
  What both programs compute, element by element, on the extended reals.

  For one scalar x the Legendre values P0 … P8 are built by Bonnet's recurrence
  exactly as both programs spell it:  P0 = 1,  P1 = x,
      Pn = ((2n-1) · x · P(n-1)  -  (n-1) · P(n-2)) / n      (n = 2 … 8),
  the product taken as ((2n-1) · x) · P(n-1), the quotient the exact quotient of the extended
  reals, every small integer the value of its binary32 word. An output element is
      tanh ( x · ( Σ_d P_d(xg) · wx[w, d]  +  Σ_d P_d(tg) · wt[w, d] )  +  bias[w] ),
  a function of one element of x, one of each grid, one row of each weight matrix and one
  bias entry ('cell'). 'rowsOut n' is that function over arrays of n rows (a block of rows, or all of
  them), 'flatOut' its case of the 4096 rows of the arrays whose two leading axes are merged, 'fullOut'
  the same over the four-axis arrays; merging the axes, applying 'flatOut' and
  splitting them again is 'fullOut' ('flatOut_reshape').
-/
import Idealize.ShloMosaic.PureOps.Ideal
import Idealize.ShloMosaic.Lib.ValueIdx
import Idealize.ShloMosaic.Lib.Pipeline.Value

noncomputable section

namespace Cert.Legendre

open Idealize.ShloMosaic Idealize.ShloMosaic.ValueIdx

/-- The extended real a binary32 word denotes. -/
abbrev lit (b : BitVec 32) : EReal := Ideal.ofBits .f32 b

/-- One step of Bonnet's recurrence: ((a · x) · p − b · q) / n. -/
def step (a b n : BitVec 32) (x p q : EReal) : EReal :=
  Ideal.div (lit a * x * p - lit b * q) (lit n)

def P0 : EReal := lit 0x3F800000#32
def P2 (x : EReal) : EReal := step 0x40400000#32 0x3F800000#32 0x40000000#32 x x P0
def P3 (x : EReal) : EReal := step 0x40A00000#32 0x40000000#32 0x40400000#32 x (P2 x) x
def P4 (x : EReal) : EReal := step 0x40E00000#32 0x40400000#32 0x40800000#32 x (P3 x) (P2 x)
def P5 (x : EReal) : EReal := step 0x41100000#32 0x40800000#32 0x40A00000#32 x (P4 x) (P3 x)
def P6 (x : EReal) : EReal := step 0x41300000#32 0x40A00000#32 0x40C00000#32 x (P5 x) (P4 x)
def P7 (x : EReal) : EReal := step 0x41500000#32 0x40C00000#32 0x40E00000#32 x (P6 x) (P5 x)
def P8 (x : EReal) : EReal := step 0x41700000#32 0x40E00000#32 0x41000000#32 x (P7 x) (P6 x)

/-- The nine Legendre values of x, by degree. -/
def leg (x : EReal) : Fin 9 → EReal := ![P0, x, P2 x, P3 x, P4 x, P5 x, P6 x, P7 x, P8 x]

/-- One output element from the elements it depends on. -/
def cell (x xg tg : EReal) (wx wt : Fin 9 → EReal) (b : EReal) : EReal :=
  Ideal.tanh (x * ((∑ d : Fin 9, leg xg d * wx d) + ∑ d : Fin 9, leg tg d * wt d) + b)

abbrev A4 : Shape := ⟨4, ![16, 256, 256, 64]⟩
abbrev A3 : Shape := ⟨3, ![16, 256, 256]⟩
abbrev M3 : Shape := ⟨3, ![4096, 256, 64]⟩
abbrev M2 : Shape := ⟨2, ![4096, 256]⟩
abbrev W2 : Shape := ⟨2, ![64, 9]⟩
abbrev B1 : Shape := ⟨1, ![64]⟩

/-- The result over arrays of n rows (the two leading axes merged, or a block of them): row r, column j, channel w
    from x[r, j, w], the grids at [r, j], row w of the weights and bias[w]. -/
def rowsOut (n : Nat) (X : (⟨3, ![n, 256, 64]⟩ : Shape).Idx → EReal) (XG TG : (⟨2, ![n, 256]⟩ : Shape).Idx → EReal)
    (WX WT : W2.Idx → EReal) (B : B1.Idx → EReal) : (⟨3, ![n, 256, 64]⟩ : Shape).Idx → EReal := fun y =>
  cell (X y) (XG (ix2 (y 0) (y 1))) (TG (ix2 (y 0) (y 1))) (fun d => WX (ix2 (y 2) d)) (fun d => WT (ix2 (y 2) d))
    (B (ix1 (y 2)))

/-- The result over all 4096 merged rows. -/
abbrev flatOut (X : M3.Idx → EReal) (XG TG : M2.Idx → EReal) (WX WT : W2.Idx → EReal) (B : B1.Idx → EReal) :
    M3.Idx → EReal := rowsOut 4096 X XG TG WX WT B

/-- The result over the four-axis arrays. -/
def fullOut (X : A4.Idx → EReal) (XG TG : A3.Idx → EReal) (WX WT : W2.Idx → EReal) (B : B1.Idx → EReal) :
    A4.Idx → EReal := fun y =>
  cell (X y) (XG (ix3 (y 0) (y 1) (y 2))) (TG (ix3 (y 0) (y 1) (y 2))) (fun d => WX (ix2 (y 3) d))
    (fun d => WT (ix2 (y 3) d)) (B (ix1 (y 3)))

/-- Row n = 256 b + i of the merged arrays is row (b, i) of the four-axis ones: the row-major positions agree. -/
theorem flatOut_reshape (X : A4.Idx → EReal) (XG TG : A3.Idx → EReal) (WX WT : W2.Idx → EReal) (B : B1.Idx → EReal)
    (h0 : A4.ShapeCasts M3) (h1 : A3.ShapeCasts M2) (h2 : A3.ShapeCasts M2) (h3 : M3.ShapeCasts A4) :
    shapeCast A4 (flatOut (shapeCast M3 X h0) (shapeCast M2 XG h1) (shapeCast M2 TG h2) WX WT B) h3
      = fullOut X XG TG WX WT B := by
  funext y
  obtain ⟨b, i, j, w, rfl⟩ : ∃ (b : Fin 16) (i : Fin 256) (j : Fin 256) (w : Fin 64), y = ix4 b i j w :=
    ⟨y 0, y 1, y 2, y 3, eq_ix4 y⟩
  have hb := b.isLt
  have hi := i.isLt
  have hj := j.isLt
  have hw := w.isLt
  have hn : b.val * 256 + i.val < 4096 := by omega
  refine (shapeCast_apply _ h3 (ix4 b i j w) (ix3 (⟨b.val * 256 + i.val, hn⟩ : Fin 4096) j w)
    (by rw [Shape.rowMajor_val_three, Shape.rowMajor_val_four]
        show ((b.val * 256 + i.val) * 256 + j.val) * 64 + w.val = ((b.val * 256 + i.val) * 256 + j.val) * 64 + w.val
        rfl)).trans ?_
  show cell (shapeCast M3 X h0 (ix3 (⟨b.val * 256 + i.val, hn⟩ : Fin 4096) j w))
      (shapeCast M2 XG h1 (ix2 (⟨b.val * 256 + i.val, hn⟩ : Fin 4096) j))
      (shapeCast M2 TG h2 (ix2 (⟨b.val * 256 + i.val, hn⟩ : Fin 4096) j)) (fun d => WX (ix2 w d)) (fun d => WT (ix2 w d))
      (B (ix1 w))
    = cell (X (ix4 b i j w)) (XG (ix3 b i j)) (TG (ix3 b i j)) (fun d => WX (ix2 w d)) (fun d => WT (ix2 w d)) (B (ix1 w))
  have e0 : shapeCast M3 X h0 (ix3 (⟨b.val * 256 + i.val, hn⟩ : Fin 4096) j w) = X (ix4 b i j w) :=
    shapeCast_apply _ h0 _ _
      (by rw [Shape.rowMajor_val_three, Shape.rowMajor_val_four]
          show ((b.val * 256 + i.val) * 256 + j.val) * 64 + w.val = ((b.val * 256 + i.val) * 256 + j.val) * 64 + w.val
          rfl)
  have e1 : shapeCast M2 XG h1 (ix2 (⟨b.val * 256 + i.val, hn⟩ : Fin 4096) j) = XG (ix3 b i j) :=
    shapeCast_apply _ h1 _ _
      (by rw [Shape.rowMajor_val_two, Shape.rowMajor_val_three]
          show (b.val * 256 + i.val) * 256 + j.val = (b.val * 256 + i.val) * 256 + j.val
          rfl)
  have e2 : shapeCast M2 TG h2 (ix2 (⟨b.val * 256 + i.val, hn⟩ : Fin 4096) j) = TG (ix3 b i j) :=
    shapeCast_apply _ h2 _ _
      (by rw [Shape.rowMajor_val_two, Shape.rowMajor_val_three]
          show (b.val * 256 + i.val) * 256 + j.val = (b.val * 256 + i.val) * 256 + j.val
          rfl)
  rw [e0, e1, e2]

end Cert.Legendre

end
-- ==== Proof.KernelPoint.lean ====
/-
  One trip of the kernel's loop stores eight rows of the output block. What it stores is a pure
  function of the eight rows it loaded of x, of x_grid and of t_grid and of the two weight matrices
  and the bias: 'tripVal'. Read at row r, column j, channel w at the extended reals it is the
  output element 'cell' of x[r, j, w], x_grid[r, j], t_grid[r, j], row w of each weight matrix
  and bias[w]: the nine Legendre values of each grid entry are laid side by side along a third
  axis and contracted against row w of the weights (a sum over the nine degrees), the two sums
  added, multiplied by x, the bias added and tanh taken.
-/
import proofs.«414161_j17927193494221_3_alg».proof.Proof.Gen.KernelIdeal.Skeleton
import proofs.«414161_j17927193494221_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Point

open Idealize.ShloMosaic Idealize.ShloMosaic.ValueIdx Cert.KernelIdeal Cert.KernelIdeal.Gen Cert.Legendre

variable {F : FTy → Type} [FloatOps F]

/-- What one trip stores, from the blocks it loaded: the weights 'v0', 'v1', the bias 'v2', eight rows
    'xg' of x_grid, 'tg' of t_grid and 'x' of x. -/
def tripVal (v0 v1 : Vec F S64x9 .f32) (v2 : Vec F S64 .f32) (xg tg : Vec F S8x256 .f32) (x : Vec F S8x256x64 .f32) :
    FVec F S8x256x64 .f32 :=
  k0_pay1 v0 v1 v2 (k0_pay3 tg) (k0_pay13 (F := F)) (k0_pay14 (k0_pay3 tg)) (k0_pay15 (k0_pay3 tg))
    (k0_pay17 (k0_pay14 (k0_pay3 tg)) (k0_pay16 (k0_pay3 tg)) (FloatOps.ofBits .f32 0x40400000#32))
    (k0_pay18 (k0_pay3 tg) (k0_pay14 (k0_pay3 tg)) (k0_pay15 (k0_pay3 tg)) (k0_pay16 (k0_pay3 tg)) (FloatOps.ofBits .f32 0x40400000#32)) (k0_pay19 (k0_pay3 tg) (k0_pay14 (k0_pay3 tg)) (k0_pay15 (k0_pay3 tg)) (k0_pay16 (k0_pay3 tg)) (FloatOps.ofBits .f32 0x40400000#32)) (k0_pay20 (k0_pay3 tg) (k0_pay14 (k0_pay3 tg)) (k0_pay15 (k0_pay3 tg)) (k0_pay16 (k0_pay3 tg)) (FloatOps.ofBits .f32 0x40400000#32)) (k0_pay21 (k0_pay3 tg) (k0_pay14 (k0_pay3 tg)) (k0_pay15 (k0_pay3 tg)) (k0_pay16 (k0_pay3 tg)) (FloatOps.ofBits .f32 0x40400000#32))
    (k0_pay22 (k0_pay2 xg) (k0_pay4 (F := F)) (k0_pay5 xg) (k0_pay6 xg) (k0_pay7 xg) (k0_pay8 xg)
      (k0_pay10 (k0_pay2 xg) (k0_pay7 xg) (k0_pay8 xg) (k0_pay9 (F := F))) (k0_pay11 (k0_pay2 xg) (k0_pay7 xg) (k0_pay8 xg) (k0_pay9 (F := F))) (k0_pay12 (k0_pay2 xg) (k0_pay7 xg) (k0_pay8 xg) (k0_pay9 (F := F))))
    x

/-! ## The Legendre values, degree by degree

Each vector operation is pointwise, so each degree's array is, entry by entry, Bonnet's step applied to the two
degrees before it. -/

/-- A shape cast to the same shape reads the grid block itself. -/
private theorem pay2_eq (xg : Vec Ideal S8x256 .f32) : k0_pay2 (F := Ideal) xg = xg := by
  unfold k0_pay2; exact shapeCast_self _ _

private theorem pay3_eq (tg : Vec Ideal S8x256 .f32) : k0_pay3 (F := Ideal) tg = tg := by
  unfold k0_pay3; exact shapeCast_self _ _

private theorem pay5_eq (xg : Vec Ideal S8x256 .f32) : k0_pay5 (F := Ideal) xg = fun i => P2 (xg i) := by
  unfold k0_pay5; rw [pay2_eq]; rfl

private theorem pay6_eq (xg : Vec Ideal S8x256 .f32) : k0_pay6 (F := Ideal) xg = fun i => P3 (xg i) := by
  unfold k0_pay6; rw [pay2_eq, pay5_eq]; rfl

private theorem pay7_eq (xg : Vec Ideal S8x256 .f32) : k0_pay7 (F := Ideal) xg = fun i => P4 (xg i) := by
  unfold k0_pay7; rw [pay2_eq, pay5_eq, pay6_eq]; rfl

private theorem pay8_eq (xg : Vec Ideal S8x256 .f32) : k0_pay8 (F := Ideal) xg = fun i => P5 (xg i) := by
  unfold k0_pay8; rw [pay2_eq, pay6_eq, pay7_eq]; rfl

private theorem pay10_eq (x : FVec Ideal S8x256 .f32) :
    k0_pay10 (F := Ideal) x (fun i => P4 (x i)) (fun i => P5 (x i)) (k0_pay9 (F := Ideal)) = fun i => P6 (x i) := by
  unfold k0_pay10; rfl

private theorem pay11_eq (x : FVec Ideal S8x256 .f32) :
    k0_pay11 (F := Ideal) x (fun i => P4 (x i)) (fun i => P5 (x i)) (k0_pay9 (F := Ideal)) = fun i => P7 (x i) := by
  unfold k0_pay11; rw [pay10_eq x]; rfl

private theorem pay12_eq (x : FVec Ideal S8x256 .f32) :
    k0_pay12 (F := Ideal) x (fun i => P4 (x i)) (fun i => P5 (x i)) (k0_pay9 (F := Ideal)) = fun i => P8 (x i) := by
  unfold k0_pay12; rw [pay11_eq x, pay10_eq x]; rfl

private theorem pay14_eq (t : FVec Ideal S8x256 .f32) : k0_pay14 (F := Ideal) t = fun i => P2 (t i) := by
  unfold k0_pay14; rfl

private theorem pay15_eq (t : FVec Ideal S8x256 .f32) : k0_pay15 (F := Ideal) t = fun i => P3 (t i) := by
  unfold k0_pay15; rw [pay14_eq]; rfl

private theorem pay16_eq (t : FVec Ideal S8x256 .f32) :
    k0_pay16 (F := Ideal) t = fun i => lit 0x40E00000#32 * t i * P3 (t i) := by
  unfold k0_pay16; rw [pay15_eq]; rfl

private theorem pay17_eq (t : FVec Ideal S8x256 .f32) :
    k0_pay17 (F := Ideal) (fun i => P2 (t i)) (fun i => lit 0x40E00000#32 * t i * P3 (t i))
      (FloatOps.ofBits (F := Ideal) .f32 0x40400000#32) = fun i => P4 (t i) := by
  unfold k0_pay17; rfl

private theorem pay18_eq (t : FVec Ideal S8x256 .f32) :
    k0_pay18 (F := Ideal) t (fun i => P2 (t i)) (fun i => P3 (t i)) (fun i => lit 0x40E00000#32 * t i * P3 (t i))
      (FloatOps.ofBits (F := Ideal) .f32 0x40400000#32) = fun i => P5 (t i) := by
  unfold k0_pay18; rw [pay17_eq t]; rfl

private theorem pay19_eq (t : FVec Ideal S8x256 .f32) :
    k0_pay19 (F := Ideal) t (fun i => P2 (t i)) (fun i => P3 (t i)) (fun i => lit 0x40E00000#32 * t i * P3 (t i))
      (FloatOps.ofBits (F := Ideal) .f32 0x40400000#32) = fun i => P6 (t i) := by
  unfold k0_pay19; rw [pay18_eq t, pay17_eq t]; rfl

private theorem pay20_eq (t : FVec Ideal S8x256 .f32) :
    k0_pay20 (F := Ideal) t (fun i => P2 (t i)) (fun i => P3 (t i)) (fun i => lit 0x40E00000#32 * t i * P3 (t i))
      (FloatOps.ofBits (F := Ideal) .f32 0x40400000#32) = fun i => P7 (t i) := by
  unfold k0_pay20; rw [pay19_eq t, pay18_eq t]; rfl

private theorem pay21_eq (t : FVec Ideal S8x256 .f32) :
    k0_pay21 (F := Ideal) t (fun i => P2 (t i)) (fun i => P3 (t i)) (fun i => lit 0x40E00000#32 * t i * P3 (t i))
      (FloatOps.ofBits (F := Ideal) .f32 0x40400000#32) = fun i => P8 (t i) := by
  unfold k0_pay21; rw [pay20_eq t, pay19_eq t]; rfl

/-! ## Nine arrays side by side along a third axis -/

/-- An [8, 256] array cast to [8, 256, 1] reads, at (r, j, 0), the operand at (r, j). -/
private theorem cast1_apply (a : S8x256.Idx → EReal) (h : S8x256.ShapeCasts S8x256x1) (r : Fin 8) (j : Fin 256) (u : Fin 1) :
    shapeCast S8x256x1 a h (ix3 r j u) = a (ix2 r j) :=
  shapeCast_apply a h _ _ (by
    rw [Shape.rowMajor_val_two, Shape.rowMajor_val_three]
    show r.val * 256 + j.val = (r.val * 256 + j.val) * 1 + u.val
    omega)

private theorem stack_0 (a0 a1 a2 a3 a4 a5 a6 a7 a8 : FVec Ideal S8x256 .f32) (r : Fin 8) (j : Fin 256) (h : 0 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨0, h⟩ : Fin 9))
      = a0 (ix2 r j) := by
  refine Eq.trans (concatenate_apply_piece (2 : Fin 3) _ _ (ix3 r j (⟨0, h⟩ : Fin 9)) 0 (by show _ < 9; omega) S8x256x1 _ rfl rfl 0 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_1 (a0 a1 a2 a3 a4 a5 a6 a7 a8 : FVec Ideal S8x256 .f32) (r : Fin 8) (j : Fin 256) (h : 1 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨1, h⟩ : Fin 9))
      = a1 (ix2 r j) := by
  refine Eq.trans (concatenate_apply_piece (2 : Fin 3) _ _ (ix3 r j (⟨1, h⟩ : Fin 9)) 1 (by show _ < 9; omega) S8x256x1 _ rfl rfl 1 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_2 (a0 a1 a2 a3 a4 a5 a6 a7 a8 : FVec Ideal S8x256 .f32) (r : Fin 8) (j : Fin 256) (h : 2 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨2, h⟩ : Fin 9))
      = a2 (ix2 r j) := by
  refine Eq.trans (concatenate_apply_piece (2 : Fin 3) _ _ (ix3 r j (⟨2, h⟩ : Fin 9)) 2 (by show _ < 9; omega) S8x256x1 _ rfl rfl 2 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_3 (a0 a1 a2 a3 a4 a5 a6 a7 a8 : FVec Ideal S8x256 .f32) (r : Fin 8) (j : Fin 256) (h : 3 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨3, h⟩ : Fin 9))
      = a3 (ix2 r j) := by
  refine Eq.trans (concatenate_apply_piece (2 : Fin 3) _ _ (ix3 r j (⟨3, h⟩ : Fin 9)) 3 (by show _ < 9; omega) S8x256x1 _ rfl rfl 3 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_4 (a0 a1 a2 a3 a4 a5 a6 a7 a8 : FVec Ideal S8x256 .f32) (r : Fin 8) (j : Fin 256) (h : 4 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨4, h⟩ : Fin 9))
      = a4 (ix2 r j) := by
  refine Eq.trans (concatenate_apply_piece (2 : Fin 3) _ _ (ix3 r j (⟨4, h⟩ : Fin 9)) 4 (by show _ < 9; omega) S8x256x1 _ rfl rfl 4 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_5 (a0 a1 a2 a3 a4 a5 a6 a7 a8 : FVec Ideal S8x256 .f32) (r : Fin 8) (j : Fin 256) (h : 5 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨5, h⟩ : Fin 9))
      = a5 (ix2 r j) := by
  refine Eq.trans (concatenate_apply_piece (2 : Fin 3) _ _ (ix3 r j (⟨5, h⟩ : Fin 9)) 5 (by show _ < 9; omega) S8x256x1 _ rfl rfl 5 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_6 (a0 a1 a2 a3 a4 a5 a6 a7 a8 : FVec Ideal S8x256 .f32) (r : Fin 8) (j : Fin 256) (h : 6 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨6, h⟩ : Fin 9))
      = a6 (ix2 r j) := by
  refine Eq.trans (concatenate_apply_piece (2 : Fin 3) _ _ (ix3 r j (⟨6, h⟩ : Fin 9)) 6 (by show _ < 9; omega) S8x256x1 _ rfl rfl 6 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_7 (a0 a1 a2 a3 a4 a5 a6 a7 a8 : FVec Ideal S8x256 .f32) (r : Fin 8) (j : Fin 256) (h : 7 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨7, h⟩ : Fin 9))
      = a7 (ix2 r j) := by
  refine Eq.trans (concatenate_apply_piece (2 : Fin 3) _ _ (ix3 r j (⟨7, h⟩ : Fin 9)) 7 (by show _ < 9; omega) S8x256x1 _ rfl rfl 7 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

private theorem stack_8 (a0 a1 a2 a3 a4 a5 a6 a7 a8 : FVec Ideal S8x256 .f32) (r : Fin 8) (j : Fin 256) (h : 8 < 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j (⟨8, h⟩ : Fin 9))
      = a8 (ix2 r j) := by
  refine Eq.trans (concatenate_apply_piece (2 : Fin 3) _ _ (ix3 r j (⟨8, h⟩ : Fin 9)) 8 (by show _ < 9; omega) S8x256x1 _ rfl rfl 8 rfl (ix3 r j (0 : Fin 1))
    (fun b hb => by
      match b, hb with
      | ⟨0, _⟩, _ => rfl
      | ⟨1, _⟩, _ => rfl
      | ⟨2, _⟩, hb => exact absurd rfl hb) rfl) ?_
  exact cast1_apply _ _ r j 0

/-- Nine [8, 256] arrays laid side by side along a third axis: at (r, j, d) the d-th array at (r, j). -/
private theorem stack_apply (a0 a1 a2 a3 a4 a5 a6 a7 a8 : FVec Ideal S8x256 .f32) (r : Fin 8) (j : Fin 256) (d : Fin 9) :
    concatenate S8x256x9 2 [⟨S8x256x1, shapeCast S8x256x1 a0 shapeCasts_S8x256_S8x256x1⟩,
        ⟨S8x256x1, shapeCast S8x256x1 a1 shapeCasts_S8x256_S8x256x1⟩, ⟨S8x256x1, shapeCast S8x256x1 a2 shapeCasts_S8x256_S8x256x1⟩,
        ⟨S8x256x1, shapeCast S8x256x1 a3 shapeCasts_S8x256_S8x256x1⟩, ⟨S8x256x1, shapeCast S8x256x1 a4 shapeCasts_S8x256_S8x256x1⟩,
        ⟨S8x256x1, shapeCast S8x256x1 a5 shapeCasts_S8x256_S8x256x1⟩, ⟨S8x256x1, shapeCast S8x256x1 a6 shapeCasts_S8x256_S8x256x1⟩,
        ⟨S8x256x1, shapeCast S8x256x1 a7 shapeCasts_S8x256_S8x256x1⟩, ⟨S8x256x1, shapeCast S8x256x1 a8 shapeCasts_S8x256_S8x256x1⟩]
        concatenates_S8x256x1_S8x256x1_S8x256x1_S8x256x1_S8x256x1_S8x256x1_S8x256x1_S8x256x1_S8x256x1_S8x256x9_d2 (ix3 r j d)
      = ![a0 (ix2 r j), a1 (ix2 r j), a2 (ix2 r j), a3 (ix2 r j), a4 (ix2 r j), a5 (ix2 r j), a6 (ix2 r j), a7 (ix2 r j),
          a8 (ix2 r j)] d := by
  match d with
  | ⟨0, h⟩ => exact stack_0 a0 a1 a2 a3 a4 a5 a6 a7 a8 r j h
  | ⟨1, h⟩ => exact stack_1 a0 a1 a2 a3 a4 a5 a6 a7 a8 r j h
  | ⟨2, h⟩ => exact stack_2 a0 a1 a2 a3 a4 a5 a6 a7 a8 r j h
  | ⟨3, h⟩ => exact stack_3 a0 a1 a2 a3 a4 a5 a6 a7 a8 r j h
  | ⟨4, h⟩ => exact stack_4 a0 a1 a2 a3 a4 a5 a6 a7 a8 r j h
  | ⟨5, h⟩ => exact stack_5 a0 a1 a2 a3 a4 a5 a6 a7 a8 r j h
  | ⟨6, h⟩ => exact stack_6 a0 a1 a2 a3 a4 a5 a6 a7 a8 r j h
  | ⟨7, h⟩ => exact stack_7 a0 a1 a2 a3 a4 a5 a6 a7 a8 r j h
  | ⟨8, h⟩ => exact stack_8 a0 a1 a2 a3 a4 a5 a6 a7 a8 r j h

/-! ## The weights' rows and the bias, repeated over the block -/

/-- A weight matrix [64, 9] given a leading unit axis and repeated over the eight rows reads, at (r, w, d), the matrix at (w, d). -/
private theorem wcast_apply (v : Vec Ideal S64x9 .f32) (r : Fin 8) (w : Fin 64) (d : Fin 9) :
    broadcastTo S8x64x9 (shapeCast S1x64x9 (shapeCast S1x64x9 v shapeCasts_S64x9_S1x64x9) shapeCasts_S1x64x9_S1x64x9)
      broadcasts_S1x64x9_S8x64x9 (ix3 r w d) = v (ix2 w d) := by
  rw [shapeCast_self]
  refine (broadcastTo_apply _ _ (ix3 r w d) (ix3 (0 : Fin 1) w d) (fun a => by
    match a with
    | ⟨0, _⟩ => rfl
    | ⟨1, _⟩ => rfl
    | ⟨2, _⟩ => rfl)).trans ?_
  exact shapeCast_ab_1ab_apply v _ 0 w d

/-- The bias [64] as [1, 1, 64] repeated over rows and columns reads, at (r, j, w), the bias at w. -/
private theorem bias_apply (v : Vec Ideal S64 .f32) (r : Fin 8) (j : Fin 256) (w : Fin 64) :
    broadcastTo S8x256x64 (shapeCast S1x1x64 v shapeCasts_S64_S1x1x64) broadcasts_S1x1x64_S8x256x64 (ix3 r j w) = v (ix1 w) := by
  refine (broadcastTo_apply _ _ (ix3 r j w) (ix3 (0 : Fin 1) (0 : Fin 1) w) (fun a => by
    match a with
    | ⟨0, _⟩ => rfl
    | ⟨1, _⟩ => rfl
    | ⟨2, _⟩ => rfl)).trans ?_
  exact shapeCast_apply v _ _ _ (by
    rw [Shape.rowMajor_val_one, Shape.rowMajor_val_three]
    show w.val = (0 * 1 + 0) * 64 + w.val
    omega)

/-! ## The contraction over the nine degrees

The product has batch axis r, contracts the third axis of both operands, and its result is indexed
(r, j, w): the left operand is read at (r, j, d), the right one at (r, w, d). -/

private theorem mm_apply (lhs : FVec Ideal S8x256x9 .f32) (rhs : FVec Ideal S8x64x9 .f32) (r : Fin 8) (j : Fin 256) (w : Fin 64) :
    matmul dot_S8x256x9_S8x64x9_S8x256x64_2_2_1_1_0_0 none lhs rhs (constant (F := Ideal) S8x256x64 .f32 0x00000000#32) (ix3 r j w)
      = ∑ d : Fin 9, lhs (ix3 r j d) * rhs (ix3 r w d) := by
  show FloatOps.matmul _ none lhs rhs (constant (F := Ideal) S8x256x64 .f32 0x00000000#32) (ix3 r j w) = _
  rw [Ideal.matmul_constant_zero_apply,
    ← Equiv.sum_comp (contrEquiv1 dot_S8x256x9_S8x64x9_S8x256x64_2_2_1_1_0_0 9 rfl rfl).symm]
  refine Finset.sum_congr rfl fun c _ => ?_
  have c3 := contrEquiv1_symm_val dot_S8x256x9_S8x64x9_S8x256x64_2_2_1_1_0_0 9 rfl rfl c
  have l3 : dot_S8x256x9_S8x64x9_S8x256x64_2_2_1_1_0_0.lhsIdx (ix3 r j w)
      ((contrEquiv1 _ 9 rfl rfl).symm c) = ix3 r j c := by
    funext ax; apply Fin.ext
    match ax with
    | ⟨0, _⟩ => simp [DotDims.lhsIdx, dot_S8x256x9_S8x64x9_S8x256x64_2_2_1_1_0_0]; rfl
    | ⟨1, _⟩ => simp [DotDims.lhsIdx, dot_S8x256x9_S8x64x9_S8x256x64_2_2_1_1_0_0]; rfl
    | ⟨2, _⟩ => simp [DotDims.lhsIdx, dot_S8x256x9_S8x64x9_S8x256x64_2_2_1_1_0_0]; exact c3
  have r3 : dot_S8x256x9_S8x64x9_S8x256x64_2_2_1_1_0_0.rhsIdx (ix3 r j w)
      ((contrEquiv1 _ 9 rfl rfl).symm c) = ix3 r w c := by
    funext ax; apply Fin.ext
    match ax with
    | ⟨0, _⟩ => simp [DotDims.rhsIdx, dot_S8x256x9_S8x64x9_S8x256x64_2_2_1_1_0_0]; rfl
    | ⟨1, _⟩ => simp [DotDims.rhsIdx, dot_S8x256x9_S8x64x9_S8x256x64_2_2_1_1_0_0]; rfl
    | ⟨2, _⟩ => simp [DotDims.rhsIdx, dot_S8x256x9_S8x64x9_S8x256x64_2_2_1_1_0_0]; exact c3
  rw [l3, r3]

/-! ## One trip at an index -/

/-- The stacked Legendre values of the first grid: at (r, j, d) the degree-d value of x_grid[r, j]. -/
private theorem pay22_apply (xg : FVec Ideal S8x256 .f32) (r : Fin 8) (j : Fin 256) (d : Fin 9) :
    k0_pay22 (F := Ideal) xg (k0_pay4 (F := Ideal)) (fun i => P2 (xg i)) (fun i => P3 (xg i)) (fun i => P4 (xg i))
      (fun i => P5 (xg i)) (fun i => P6 (xg i)) (fun i => P7 (xg i)) (fun i => P8 (xg i)) (ix3 r j d)
      = leg (xg (ix2 r j)) d := by
  unfold k0_pay22
  exact (stack_apply _ _ _ _ _ _ _ _ _ r j d).trans rfl

/-- The stored value at (r, j, w), over any nine arrays for the second grid's degrees and any stacked array for the first's:
    tanh of x times the sum of the two contractions, plus the bias. -/
private theorem pay1_apply (v0 v1 : Vec Ideal S64x9 .f32) (v2 : Vec Ideal S64 .f32) (t a0 a2 a3 a4 a5 a6 a7 a8 : FVec Ideal S8x256 .f32)
    (L : FVec Ideal S8x256x9 .f32) (x : Vec Ideal S8x256x64 .f32) (r : Fin 8) (j : Fin 256) (w : Fin 64) :
    k0_pay1 (F := Ideal) v0 v1 v2 t a0 a2 a3 a4 a5 a6 a7 a8 L x (ix3 r j w)
      = Ideal.tanh (x (ix3 r j w) * ((∑ d : Fin 9, L (ix3 r j d) * v0 (ix2 w d))
          + ∑ d : Fin 9, ![a0 (ix2 r j), t (ix2 r j), a2 (ix2 r j), a3 (ix2 r j), a4 (ix2 r j), a5 (ix2 r j), a6 (ix2 r j),
              a7 (ix2 r j), a8 (ix2 r j)] d * v1 (ix2 w d)) + v2 (ix1 w)) := by
  unfold k0_pay1
  show Ideal.tanh (shapeCast S8x256x64 x shapeCasts_S8x256x64_S8x256x64 (ix3 r j w)
      * (matmul dot_S8x256x9_S8x64x9_S8x256x64_2_2_1_1_0_0 none L _ (constant (F := Ideal) S8x256x64 .f32 0x00000000#32) (ix3 r j w)
        + matmul dot_S8x256x9_S8x64x9_S8x256x64_2_2_1_1_0_0 none _ _ (constant (F := Ideal) S8x256x64 .f32 0x00000000#32) (ix3 r j w))
      + broadcastTo S8x256x64 (shapeCast S1x1x64 v2 shapeCasts_S64_S1x1x64) broadcasts_S1x1x64_S8x256x64 (ix3 r j w)) = _
  rw [mm_apply, mm_apply, shapeCast_self, bias_apply]
  refine congrArg (fun s => Ideal.tanh (x (ix3 r j w) * s + v2 (ix1 w))) ?_
  refine congrArg₂ (· + ·) (Finset.sum_congr rfl fun d _ => ?_) (Finset.sum_congr rfl fun d _ => ?_)
  · exact congrArg (L (ix3 r j d) * ·) (wcast_apply v0 r w d)
  · exact congrArg₂ (· * ·) (stack_apply _ _ _ _ _ _ _ _ _ r j d) (wcast_apply v1 r w d)

/-- A trip's stored value at (r, j, w), at the extended reals. -/
theorem tripVal_apply (v0 v1 : Vec Ideal S64x9 .f32) (v2 : Vec Ideal S64 .f32) (xg tg : Vec Ideal S8x256 .f32)
    (x : Vec Ideal S8x256x64 .f32) (r : Fin 8) (j : Fin 256) (w : Fin 64) :
    tripVal (F := Ideal) v0 v1 v2 xg tg x (ix3 r j w)
      = cell (x (ix3 r j w)) (xg (ix2 r j)) (tg (ix2 r j)) (fun d => v0 (ix2 w d)) (fun d => v1 (ix2 w d)) (v2 (ix1 w)) := by
  unfold tripVal
  rw [pay3_eq, pay2_eq, pay14_eq, pay15_eq, pay16_eq, pay17_eq tg, pay18_eq tg, pay19_eq tg, pay20_eq tg, pay21_eq tg,
    pay5_eq, pay6_eq, pay7_eq, pay8_eq, pay10_eq xg, pay11_eq xg, pay12_eq xg, pay1_apply]
  simp only [pay22_apply]
  rfl

end Cert.KernelIdeal.Point

end
-- ==== Proof.KernelTrip.lean ====
/-
  The output block of one grid point. The kernel's loop makes eight trips; trip k loads rows 8k … 8k+7 of
  the point's blocks of x, x_grid and t_grid and stores eight rows of the output block at the same
  offset. Each stored piece is the trip's value ('tripVal') of those rows, and row r of a piece is row
  8k + r of the block; so every piece is the restriction of ONE function of the block index — the output
  element of the block entries at that index ('rowsOut 64') — and, the eight pieces tiling the block,
  what the body leaves in the output's staging buffer is that function.
-/
import proofs.«414161_j17927193494221_3_alg».proof.Proof.Gen.KernelIdeal.Frame
import proofs.«414161_j17927193494221_3_alg».proof.Proof.KernelPoint

set_option maxRecDepth 16384

noncomputable section

namespace Cert.KernelIdeal.Trip

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.KernelIdeal.Point Cert.Legendre

variable {F : FTy → Type} [FloatOps F]

/-- Trip k writes one piece: at rows 8k … 8k+7 of the output block, the trip's value of the rows it loaded. -/
theorem tripL_eq (𝒱 : Variants) (c : Dev nD) (bd : Option 𝒱.V) (i : grid0.Coords) (arg1 : Memref sig .tc .vmem S64x256x64 .f32) (harg1 : arg1.IsWhole) (arg2 : Memref sig .tc .vmem S64x256 .f32) (harg2 : arg2.IsWhole) (arg3 : Memref sig .tc .vmem S64x256 .f32) (harg3 : arg3.IsWhole) (arg4 : Memref sig .tc .vmem S64x9 .f32) (harg4 : arg4.IsWhole) (arg5 : Memref sig .tc .vmem S64x9 .f32) (harg5 : arg5.IsWhole) (arg6 : Memref sig .tc .vmem S64 .f32) (harg6 : arg6.IsWhole) (arg7 : Memref sig .tc .vmem S64x256x64 .f32) (harg7 : arg7.IsWhole) (v0 : Vec F S64x9 .f32) (v1 : Vec F S64x9 .f32) (v2 : Vec F S64 .f32) (X_arg1 : BufTy.Contents (Elt F) arg1.view.ty) (X_arg2 : BufTy.Contents (Elt F) arg2.view.ty) (X_arg3 : BufTy.Contents (Elt F) arg3.view.ty) (k : Fin k0_t1_loop.trips) :
    tripL_k0_t1 (F := F) 𝒱 c bd i arg1 harg1 arg2 harg2 arg3 harg3 arg4 harg4 arg5 harg5 arg6 harg6 arg7 harg7 v0 v1 v2 X_arg1 X_arg2 X_arg3 k
      = [⟨Rect.unit (s := S64x256x64) (k0_off2 k) S8x256x64.size (k0_off2_inb k),
          tripVal v0 v1 v2
            (View.readAt (Elt F) arg2.view (Rect.unit (s := S64x256) (k0_off1 k) S8x256.size (k0_off1_inb k)).toLoadRect X_arg2)
            (View.readAt (Elt F) arg3.view (Rect.unit (s := S64x256) (k0_off1 k) S8x256.size (k0_off1_inb k)).toLoadRect X_arg3)
            (View.readAt (Elt F) arg1.view (Rect.unit (s := S64x256x64) (k0_off2 k) S8x256x64.size (k0_off2_inb k)).toLoadRect X_arg1)⟩] := by
  unfold tripL_k0_t1 trip_k0_t1
  dsimp only
  sl_unfold_run_names
  rfl

/-- A load of rows 8k … 8k+7 of a whole [64, 256] buffer reads the buffer's contents at those rows. -/
theorem read_rows2 (M : Memref sig .tc .vmem S64x256 .f32) (h : M.IsWhole) (X : Vec F S64x256 .f32)
    (k : Fin k0_t1_loop.trips) (r : Fin 8) (j : Fin 256) (hr : 8 * k.val + r.val < 64) :
    View.readAt (Elt F) M.view (Rect.unit (s := S64x256) (k0_off1 k) S8x256.size (k0_off1_inb k)).toLoadRect (h.unread X) (ix2 r j)
      = X (ix2 (⟨8 * k.val + r.val, hr⟩ : Fin 64) j) := by
  rw [View.readAt_apply, h.read_unread]
  refine congrArg X (funext fun a => Fin.ext ?_)
  match a with
  | ⟨0, _⟩ =>
    show k0_off1 k 0 + 1 * r.val = 8 * k.val + r.val
    rw [k0_off1_eq k]; show 8 * k.val + 1 * r.val = _; omega
  | ⟨1, _⟩ =>
    show k0_off1 k 1 + 1 * j.val = j.val
    rw [k0_off1_eq k]; show 0 + 1 * j.val = _; omega

/-- The same for a whole [64, 256, 64] buffer. -/
theorem read_rows3 (M : Memref sig .tc .vmem S64x256x64 .f32) (h : M.IsWhole) (X : Vec F S64x256x64 .f32)
    (k : Fin k0_t1_loop.trips) (r : Fin 8) (j : Fin 256) (w : Fin 64) (hr : 8 * k.val + r.val < 64) :
    View.readAt (Elt F) M.view (Rect.unit (s := S64x256x64) (k0_off2 k) S8x256x64.size (k0_off2_inb k)).toLoadRect (h.unread X) (ix3 r j w)
      = X (ix3 (⟨8 * k.val + r.val, hr⟩ : Fin 64) j w) := by
  rw [View.readAt_apply, h.read_unread]
  refine congrArg X (funext fun a => Fin.ext ?_)
  match a with
  | ⟨0, _⟩ =>
    show k0_off2 k 0 + 1 * r.val = 8 * k.val + r.val
    rw [k0_off2_eq k]; show 8 * k.val + 1 * r.val = _; omega
  | ⟨1, _⟩ =>
    show k0_off2 k 1 + 1 * j.val = j.val
    rw [k0_off2_eq k]; show 0 + 1 * j.val = _; omega
  | ⟨2, _⟩ =>
    show k0_off2 k 2 + 1 * w.val = w.val
    rw [k0_off2_eq k]; show 0 + 1 * w.val = _; omega

/-- Row r of the piece trip k stores is row 8k + r of the block. -/
theorem piece_emb (k : Fin k0_t1_loop.trips) (r : Fin 8) (j : Fin 256) (w : Fin 64) (hr : 8 * k.val + r.val < 64) :
    (Rect.unit (s := S64x256x64) (k0_off2 k) S8x256x64.size (k0_off2_inb k)).emb (ix3 r j w)
      = ix3 (⟨8 * k.val + r.val, hr⟩ : Fin 64) j w := by
  refine funext fun a => Fin.ext ?_
  match a with
  | ⟨0, _⟩ =>
    show k0_off2 k 0 + 1 * r.val = 8 * k.val + r.val
    rw [k0_off2_eq k]; show 8 * k.val + 1 * r.val = _; omega
  | ⟨1, _⟩ =>
    show k0_off2 k 1 + 1 * j.val = j.val
    rw [k0_off2_eq k]; show 0 + 1 * j.val = _; omega
  | ⟨2, _⟩ =>
    show k0_off2 k 2 + 1 * w.val = w.val
    rw [k0_off2_eq k]; show 0 + 1 * w.val = _; omega

/-- A load of a whole buffer through the rectangle that is all of it reads the buffer's contents. -/
theorem read_all2 (M : Memref sig .tc .vmem S64x9 .f32) (h : M.IsWhole) (X : Vec F S64x9 .f32)
    (inb : ∀ a, (![0, 0] : Fin 2 → Nat) a + S64x9.size a ≤ S64x9.size a) :
    View.readAt (Elt F) M.view (Rect.unit (s := S64x9) ![0, 0] S64x9.size inb).toLoadRect (h.unread X) = X := by
  funext y
  rw [View.readAt_apply, h.read_unread]
  refine congrArg X (funext fun a => Fin.ext ?_)
  match a with
  | ⟨0, _⟩ => show 0 + 1 * (y 0).val = (y 0).val; omega
  | ⟨1, _⟩ => show 0 + 1 * (y 1).val = (y 1).val; omega

theorem read_all1 (M : Memref sig .tc .vmem S64 .f32) (h : M.IsWhole) (X : Vec F S64 .f32)
    (inb : ∀ a, (![0] : Fin 1 → Nat) a + S64.size a ≤ S64.size a) :
    View.readAt (Elt F) M.view (Rect.unit (s := S64) ![0] S64.size inb).toLoadRect (h.unread X) = X := by
  funext y
  rw [View.readAt_apply, h.read_unread]
  refine congrArg X (funext fun a => Fin.ext ?_)
  match a with
  | ⟨0, _⟩ => show 0 + 1 * (y 0).val = (y 0).val; omega

/-- Every piece the trips before the n-th have written is the restriction of 'rowsOut 64' of the block entries to
    the piece's rows: by induction on n, the new piece by the trip's value read at an index. -/
theorem pieces_agree (c : Dev nD) (i : grid0.Coords) (arg1 : Memref sig .tc .vmem S64x256x64 .f32) (harg1 : arg1.IsWhole) (arg2 : Memref sig .tc .vmem S64x256 .f32) (harg2 : arg2.IsWhole) (arg3 : Memref sig .tc .vmem S64x256 .f32) (harg3 : arg3.IsWhole) (arg4 : Memref sig .tc .vmem S64x9 .f32) (harg4 : arg4.IsWhole) (arg5 : Memref sig .tc .vmem S64x9 .f32) (harg5 : arg5.IsWhole) (arg6 : Memref sig .tc .vmem S64 .f32) (harg6 : arg6.IsWhole) (arg7 : Memref sig .tc .vmem S64x256x64 .f32) (harg7 : arg7.IsWhole) (x0 : Vec Ideal S64x256x64 .f32) (x1 x2 : Vec Ideal S64x256 .f32) (x3 x4 : Vec Ideal S64x9 .f32) (x5 : Vec Ideal S64 .f32) :
    ∀ n : ℕ, ∀ p ∈ pb_k0_t1 (F := Ideal) Variants.none c none i arg1 harg1 arg2 harg2 arg3 harg3 arg4 harg4 arg5 harg5 arg6 harg6 arg7 harg7 x3 x4 x5 (harg1.unread x0) (harg2.unread x1) (harg3.unread x2) n,
      ∀ x : p.1.shape.Idx, p.2 x = rowsOut 64 x0 x1 x2 x3 x4 x5 (p.1.emb x) := by
  intro n
  induction n with
  | zero => intro p hp; rw [pb_k0_t1.eq_1] at hp; exact absurd hp (List.not_mem_nil)
  | succ n ih =>
    intro p hp x
    by_cases hn : n < k0_t1_loop.trips
    · have hs := pb_k0_t1_succ (F := Ideal) Variants.none c none i arg1 harg1 arg2 harg2 arg3 harg3 arg4 harg4 arg5 harg5 arg6 harg6 arg7 harg7 x3 x4 x5 (harg1.unread x0) (harg2.unread x1) (harg3.unread x2) ⟨n, hn⟩
      rw [show n + 1 = (⟨n, hn⟩ : Fin k0_t1_loop.trips).val + 1 from rfl, hs, tripL_eq, List.mem_append] at hp
      rcases hp with hp | hp
      · rw [List.mem_singleton] at hp
        subst hp
        obtain ⟨r, j, w, rfl⟩ : ∃ (r : Fin 8) (j : Fin 256) (w : Fin 64), x = ix3 r j w := ⟨x 0, x 1, x 2, eq_ix3 x⟩
        have hk8 : n < 8 := lt_of_lt_of_le hn k0_t1_abs.2.1
        have hr : 8 * (⟨n, hn⟩ : Fin k0_t1_loop.trips).val + r.val < 64 := by show 8 * n + r.val < 64; have := r.isLt; omega
        show tripVal (F := Ideal) x3 x4 x5
            (View.readAt (Elt Ideal) arg2.view (Rect.unit (s := S64x256) (k0_off1 ⟨n, hn⟩) S8x256.size (k0_off1_inb ⟨n, hn⟩)).toLoadRect (harg2.unread x1))
            (View.readAt (Elt Ideal) arg3.view (Rect.unit (s := S64x256) (k0_off1 ⟨n, hn⟩) S8x256.size (k0_off1_inb ⟨n, hn⟩)).toLoadRect (harg3.unread x2))
            (View.readAt (Elt Ideal) arg1.view (Rect.unit (s := S64x256x64) (k0_off2 ⟨n, hn⟩) S8x256x64.size (k0_off2_inb ⟨n, hn⟩)).toLoadRect (harg1.unread x0))
            (ix3 r j w)
          = rowsOut 64 x0 x1 x2 x3 x4 x5 ((Rect.unit (s := S64x256x64) (k0_off2 ⟨n, hn⟩) S8x256x64.size (k0_off2_inb ⟨n, hn⟩)).emb (ix3 r j w))
        rw [tripVal_apply, read_rows3 arg1 harg1 x0 ⟨n, hn⟩ r j w hr, read_rows2 arg2 harg2 x1 ⟨n, hn⟩ r j hr,
          read_rows2 arg3 harg3 x2 ⟨n, hn⟩ r j hr, piece_emb ⟨n, hn⟩ r j w hr]
        rfl
      · exact ih p hp x
    · rw [pb_k0_t1.eq_2] at hp
      unfold pb_k0_t1Step at hp
      rw [dif_neg hn] at hp
      exact ih p hp x

/-- What the body leaves in the output block: 'rowsOut 64' of the six input blocks. -/
theorem out_block (c : Dev nD) (i : grid0.Coords) (arg1 : Memref sig .tc .vmem S64x256x64 .f32) (harg1 : arg1.IsWhole) (arg2 : Memref sig .tc .vmem S64x256 .f32) (harg2 : arg2.IsWhole) (arg3 : Memref sig .tc .vmem S64x256 .f32) (harg3 : arg3.IsWhole) (arg4 : Memref sig .tc .vmem S64x9 .f32) (harg4 : arg4.IsWhole) (arg5 : Memref sig .tc .vmem S64x9 .f32) (harg5 : arg5.IsWhole) (arg6 : Memref sig .tc .vmem S64 .f32) (harg6 : arg6.IsWhole) (arg7 : Memref sig .tc .vmem S64x256x64 .f32) (harg7 : arg7.IsWhole) (x0 : Vec Ideal S64x256x64 .f32) (x1 x2 : Vec Ideal S64x256 .f32) (x3 x4 : Vec Ideal S64x9 .f32) (x5 : Vec Ideal S64 .f32) :
    out0_A_6 (F := Ideal) c i arg1 harg1 arg2 harg2 arg3 harg3 arg4 harg4 arg5 harg5 arg6 harg6 arg7 harg7 x0 x1 x2 x3 x4 x5 = rowsOut 64 x0 x1 x2 x3 x4 x5 := by
  have hrun : (kernelRun0_A (F := Ideal) c i arg1 harg1 arg2 harg2 arg3 harg3 arg4 harg4 arg5 harg5 arg6 harg6 arg7 harg7 x0 x1 x2 x3 x4 x5).1
      = pb_k0_t1 (F := Ideal) Variants.none c none i arg1 harg1 arg2 harg2 arg3 harg3 arg4 harg4 arg5 harg5 arg6 harg6 arg7 harg7 x3 x4 x5 (harg1.unread x0) (harg2.unread x1) (harg3.unread x2) k0_t1_loop.trips := by
    unfold kernelRun0_A
    dsimp only
    rw [read_all2 arg4 harg4 x3, read_all2 arg5 harg5 x4, read_all1 arg6 harg6 x5]
  funext y
  unfold out0_A_6
  rw [View.read_writes_eq_canon _ _ _ (cover0_A_6 c i arg1 harg1 arg2 harg2 arg3 harg3 arg4 harg4 arg5 harg5 arg6 harg6 arg7 harg7 x0 x1 x2 x3 x4 x5)]
  refine View.canon_apply_of_pieces (rowsOut 64 x0 x1 x2 x3 x4 x5) _ ?_ y (cover0_A_6 c i arg1 harg1 arg2 harg2 arg3 harg3 arg4 harg4 arg5 harg5 arg6 harg6 arg7 harg7 x0 x1 x2 x3 x4 x5 y)
  rw [hrun]
  exact pieces_agree c i arg1 harg1 arg2 harg2 arg3 harg3 arg4 harg4 arg5 harg5 arg6 harg6 arg7 harg7 x0 x1 x2 x3 x4 x5 _

end Cert.KernelIdeal.Trip

end
-- ==== Proof.KernelArray.lean ====
/-
  From blocks to the array, and the program around the region. Grid point t (of 64) stages rows
  64t … 64t+63 of x, x_grid and t_grid (the arrays with their two leading axes merged: 4096 rows), the
  whole weight matrices and the whole bias, and writes back rows 64t … 64t+63 of the result. What it
  writes back is 'rowsOut 64' of its blocks, which is the restriction to those rows of 'flatOut' of the
  arrays; the 64 blocks tile the 4096 rows, so the region leaves 'flatOut' of its operands. Before the
  region the program merges the leading axes of x and the grids; after it, it splits the result's
  4096 rows into 16 × 256: the result is 'fullOut' of the arguments ('flatOut_reshape').
-/
import proofs.«414161_j17927193494221_3_alg».proof.Proof.Gen.KernelIdeal.Frame
import proofs.«414161_j17927193494221_3_alg».proof.Proof.KernelTrip
import Idealize.ShloMosaic.Lib.StableHlo.Run

set_option maxRecDepth 16384

noncomputable section

namespace Cert.KernelIdeal.Array

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen Cert.KernelIdeal.Trip Cert.Legendre

variable (m : (ℓ : Loc nD τ sig) → Buf (Elt Ideal) ℓ) (ρ : Dev nD → PrngReg)

/-- The region's six operand arrays as it finds them. -/
abbrev xArr (c : Dev nD) : Vec Ideal S4096x256x64 .f32 := V m c main_v0
abbrev xgArr (c : Dev nD) : Vec Ideal S4096x256 .f32 := V m c main_v1
abbrev tgArr (c : Dev nD) : Vec Ideal S4096x256 .f32 := V m c main_v2
abbrev wxArr (c : Dev nD) : Vec Ideal S64x9 .f32 := V m c main_arg3
abbrev wtArr (c : Dev nD) : Vec Ideal S64x9 .f32 := V m c main_arg4
abbrev bArr (c : Dev nD) : Vec Ideal S64 .f32 := V m c main_arg5

/-- Point t's blocks of them. -/
abbrev xBlk (c : Dev nD) (t : Fin cfg0.N) : Vec Ideal S64x256x64 .f32 := iblk m c 0 t
abbrev xgBlk (c : Dev nD) (t : Fin cfg0.N) : Vec Ideal S64x256 .f32 := iblk m c 1 t
abbrev tgBlk (c : Dev nD) (t : Fin cfg0.N) : Vec Ideal S64x256 .f32 := iblk m c 2 t
abbrev wxBlk (c : Dev nD) (t : Fin cfg0.N) : Vec Ideal S64x9 .f32 := iblk m c 3 t
abbrev wtBlk (c : Dev nD) (t : Fin cfg0.N) : Vec Ideal S64x9 .f32 := iblk m c 4 t
abbrev bBlk (c : Dev nD) (t : Fin cfg0.N) : Vec Ideal S64 .f32 := iblk m c 5 t

/-- The index maps over the grid: x, the grids and the result move one block of rows per point; the weights and the
    bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 3) = t.val ∧ win0_6.index t (1 : Fin 3) = 0 ∧ win0_6.index t (2 : Fin 3) = 0 :=
  (by decide +kernel : ∀ t : Fin grid0.N, _)

theorem N_eq : cfg0.N = 64 := rfl

/-- Row r of point t's block of x is row 64t + r of the array; likewise for the grids and the result. -/
theorem xBlk_apply (c : Dev nD) (t : Fin cfg0.N) (r : Fin 64) (j : Fin 256) (w : Fin 64) (hR : t.val * 64 + r.val < 4096) :
    xBlk m c t (ix3 r j w) = xArr m c (ix3 (⟨t.val * 64 + r.val, hR⟩ : Fin 4096) j w) := by
  obtain ⟨e00, e01, e02, -⟩ := idx_facts t
  show V m c main_v0 (((cfg0.win 0).blk t).view.emb (ix3 r j w)) = V m c main_v0 (ix3 (⟨t.val * 64 + r.val, hR⟩ : Fin 4096) j w)
  refine congrArg (V m c main_v0) (funext fun a => Fin.ext ?_)
  match a with
  | ⟨0, _⟩ => show win0_0.index t (0 : Fin 3) * 64 + 1 * r.val = t.val * 64 + r.val; omega
  | ⟨1, _⟩ => show win0_0.index t (1 : Fin 3) * 256 + 1 * j.val = j.val; omega
  | ⟨2, _⟩ => show win0_0.index t (2 : Fin 3) * 64 + 1 * w.val = w.val; omega

theorem xgBlk_apply (c : Dev nD) (t : Fin cfg0.N) (r : Fin 64) (j : Fin 256) (hR : t.val * 64 + r.val < 4096) :
    xgBlk m c t (ix2 r j) = xgArr m c (ix2 (⟨t.val * 64 + r.val, hR⟩ : Fin 4096) j) := by
  obtain ⟨-, -, -, e10, e11, -⟩ := idx_facts t
  show V m c main_v1 (((cfg0.win 1).blk t).view.emb (ix2 r j)) = V m c main_v1 (ix2 (⟨t.val * 64 + r.val, hR⟩ : Fin 4096) j)
  refine congrArg (V m c main_v1) (funext fun a => Fin.ext ?_)
  match a with
  | ⟨0, _⟩ => show win0_1.index t (0 : Fin 2) * 64 + 1 * r.val = t.val * 64 + r.val; omega
  | ⟨1, _⟩ => show win0_1.index t (1 : Fin 2) * 256 + 1 * j.val = j.val; omega

theorem tgBlk_apply (c : Dev nD) (t : Fin cfg0.N) (r : Fin 64) (j : Fin 256) (hR : t.val * 64 + r.val < 4096) :
    tgBlk m c t (ix2 r j) = tgArr m c (ix2 (⟨t.val * 64 + r.val, hR⟩ : Fin 4096) j) := by
  obtain ⟨-, -, -, -, -, e20, e21, -⟩ := idx_facts t
  show V m c main_v2 (((cfg0.win 2).blk t).view.emb (ix2 r j)) = V m c main_v2 (ix2 (⟨t.val * 64 + r.val, hR⟩ : Fin 4096) j)
  refine congrArg (V m c main_v2) (funext fun a => Fin.ext ?_)
  match a with
  | ⟨0, _⟩ => show win0_2.index t (0 : Fin 2) * 64 + 1 * r.val = t.val * 64 + r.val; omega
  | ⟨1, _⟩ => show win0_2.index t (1 : Fin 2) * 256 + 1 * j.val = j.val; omega

/-- The weights' and the bias's blocks are the whole arrays. -/
theorem wxBlk_apply (c : Dev nD) (t : Fin cfg0.N) (w : Fin 64) (d : Fin 9) : wxBlk m c t (ix2 w d) = wxArr m c (ix2 w d) := by
  obtain ⟨-, -, -, -, -, -, -, e30, e31, -⟩ := idx_facts t
  show V m c main_arg3 (((cfg0.win 3).blk t).view.emb (ix2 w d)) = V m c main_arg3 (ix2 w d)
  refine congrArg (V m c main_arg3) (funext fun a => Fin.ext ?_)
  match a with
  | ⟨0, _⟩ => show win0_3.index t (0 : Fin 2) * 64 + 1 * w.val = w.val; omega
  | ⟨1, _⟩ => show win0_3.index t (1 : Fin 2) * 9 + 1 * d.val = d.val; omega

theorem wtBlk_apply (c : Dev nD) (t : Fin cfg0.N) (w : Fin 64) (d : Fin 9) : wtBlk m c t (ix2 w d) = wtArr m c (ix2 w d) := by
  obtain ⟨-, -, -, -, -, -, -, -, -, e40, e41, -⟩ := idx_facts t
  show V m c main_arg4 (((cfg0.win 4).blk t).view.emb (ix2 w d)) = V m c main_arg4 (ix2 w d)
  refine congrArg (V m c main_arg4) (funext fun a => Fin.ext ?_)
  match a with
  | ⟨0, _⟩ => show win0_4.index t (0 : Fin 2) * 64 + 1 * w.val = w.val; omega
  | ⟨1, _⟩ => show win0_4.index t (1 : Fin 2) * 9 + 1 * d.val = d.val; omega

theorem bBlk_apply (c : Dev nD) (t : Fin cfg0.N) (w : Fin 64) : bBlk m c t (ix1 w) = bArr m c (ix1 w) := by
  obtain ⟨-, -, -, -, -, -, -, -, -, -, -, e50, -⟩ := idx_facts t
  show V m c main_arg5 (((cfg0.win 5).blk t).view.emb (ix1 w)) = V m c main_arg5 (ix1 w)
  refine congrArg (V m c main_arg5) (funext fun a => Fin.ext ?_)
  match a with
  | ⟨0, _⟩ => show win0_5.index t (0 : Fin 1) * 64 + 1 * w.val = w.val; omega

/-- Row r of the block point t writes back is row 64t + r of the result array. -/
theorem out_emb (t : Fin cfg0.N) (r : Fin 64) (j : Fin 256) (w : Fin 64) (hR : t.val * 64 + r.val < 4096) :
    ((cfg0.win 6).blk t).view.emb (ix3 r j w) = ix3 (⟨t.val * 64 + r.val, hR⟩ : Fin 4096) j w := by
  obtain ⟨-, -, -, -, -, -, -, -, -, -, -, -, e60, e61, e62⟩ := idx_facts t
  refine funext fun a => Fin.ext ?_
  match a with
  | ⟨0, _⟩ => show win0_6.index t (0 : Fin 3) * 64 + 1 * r.val = t.val * 64 + r.val; omega
  | ⟨1, _⟩ => show win0_6.index t (1 : Fin 3) * 256 + 1 * j.val = j.val; omega
  | ⟨2, _⟩ => show win0_6.index t (2 : Fin 3) * 64 + 1 * w.val = w.val; omega

/-- What point t writes back is block t of 'flatOut' of the operand arrays. -/
theorem flushed_eq (c : Dev nD) (t : Fin cfg0.N) :
    (dats m 0 c).flushed 6 t
      = ((cfg0.win 6).blk t).view.read (Elt Ideal) (flatOut (xArr m c) (xgArr m c) (tgArr m c) (wxArr m c) (wtArr m c) (bArr m c)) := by
  show (cfg0.win 6).cut (grid0.coords t) ((dats m 0 c).after 6 t) = _
  rw [after0_6]
  unfold outsAt0
  rw [out_block c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (xBlk m c t) (xgBlk m c t) (tgBlk m c t) (wxBlk m c t) (wtBlk m c t) (bBlk m c t)]
  funext y
  obtain ⟨r, j, w, rfl⟩ : ∃ (r : Fin 64) (j : Fin 256) (w : Fin 64), y = ix3 r j w := ⟨y 0, y 1, y 2, eq_ix3 y⟩
  have ht : t.val < 64 := t.isLt
  have hR : t.val * 64 + r.val < 4096 := by have := r.isLt; omega
  show cell (xBlk m c t (ix3 r j w)) (xgBlk m c t (ix2 r j)) (tgBlk m c t (ix2 r j)) (fun d => wxBlk m c t (ix2 w d))
      (fun d => wtBlk m c t (ix2 w d)) (bBlk m c t (ix1 w))
    = flatOut (xArr m c) (xgArr m c) (tgArr m c) (wxArr m c) (wtArr m c) (bArr m c) (((cfg0.win 6).blk t).view.emb (ix3 r j w))
  rw [out_emb t r j w hR, xBlk_apply m c t r j w hR, xgBlk_apply m c t r j hR, tgBlk_apply m c t r j hR, bBlk_apply m c t w,
    funext (wxBlk_apply m c t w), funext (wtBlk_apply m c t w)]
  rfl

/-- An index of the result array is in point t's block iff each coordinate is in the block's range on its axis. -/
theorem mem_blk (t : Fin cfg0.N) (i : S4096x256x64.Idx) :
    i ∈ ((cfg0.win 6).blk t).view.set ↔ ∀ a : Fin 3, win0_6.index t a * S64x256x64.size a ≤ (i a).val
      ∧ (i a).val < win0_6.index t a * S64x256x64.size a + S64x256x64.size a := by
  show i ∈ ((View.whole main_v3).slice (win0_6.rect t)).set ↔ _
  rw [View.set_slice_whole, Rect.mem_set_unit]
  exact Iff.rfl

/-- The 64 blocks tile the 4096 rows: row R is in the block of point R / 64. -/
theorem cover (i : S4096x256x64.Idx) :
    ∃ t : Fin cfg0.N, (cfg0.win 6).flush t = true ∧ i ∈ ((cfg0.win 6).blk t).view.set := by
  have hi0 : (i 0).val < 4096 := (i 0).isLt
  have hi1 : (i 1).val < 256 := (i 1).isLt
  have hi2 : (i 2).val < 64 := (i 2).isLt
  have hq : (i 0).val / 64 < 64 := by omega
  obtain ⟨t, ht⟩ : ∃ t : Fin cfg0.N, t.val = (i 0).val / 64 := ⟨⟨(i 0).val / 64, hq⟩, rfl⟩
  refine ⟨t, flush0_6 t, ?_⟩
  rw [mem_blk]
  obtain ⟨-, -, -, -, -, -, -, -, -, -, -, -, e60, e61, e62⟩ := idx_facts t
  intro a
  match a with
  | ⟨0, _⟩ =>
    show win0_6.index t (0 : Fin 3) * 64 ≤ (i 0).val ∧ (i 0).val < win0_6.index t (0 : Fin 3) * 64 + 64
    omega
  | ⟨1, _⟩ =>
    show win0_6.index t (1 : Fin 3) * 256 ≤ (i 1).val ∧ (i 1).val < win0_6.index t (1 : Fin 3) * 256 + 256
    omega
  | ⟨2, _⟩ =>
    show win0_6.index t (2 : Fin 3) * 64 ≤ (i 2).val ∧ (i 2).val < win0_6.index t (2 : Fin 3) * 64 + 64
    omega

/-- The region leaves 'flatOut' of its operand arrays in the result array. -/
theorem region_value (c : Dev nD) :
    (dats m 0 c).arrAt 6 cfg0.N = flatOut (xArr m c) (xgArr m c) (tgArr m c) (wxArr m c) (wtArr m c) (bArr m c) :=
  (dats m 0 c).arrAt_eq_of_cover 6 _ (fun t _ => flushed_eq m c t) cover

/-- Before the region the leading axes of x and of the two grids are merged. -/
theorem xArr_eq (c : Dev nD) (h : S16x256x256x64.ShapeCasts S4096x256x64) :
    xArr m c = shapeCast S4096x256x64 (m ((c : Thread nD τ).loc main_arg0)) h := by
  show StableHlo.after hostOps0 (fun b => m (c, b)) (Proc.devRef .tc main_v0) = _
  after_results
  rfl

theorem xgArr_eq (c : Dev nD) (h : S16x256x256.ShapeCasts S4096x256) :
    xgArr m c = shapeCast S4096x256 (m ((c : Thread nD τ).loc main_arg1)) h := by
  show StableHlo.after hostOps0 (fun b => m (c, b)) (Proc.devRef .tc main_v1) = _
  after_results
  rfl

theorem tgArr_eq (c : Dev nD) (h : S16x256x256.ShapeCasts S4096x256) :
    tgArr m c = shapeCast S4096x256 (m ((c : Thread nD τ).loc main_arg2)) h := by
  show StableHlo.after hostOps0 (fun b => m (c, b)) (Proc.devRef .tc main_v2) = _
  after_results
  rfl

/-- After the region the result's 4096 rows are split into 16 × 256. -/
theorem tail_value (c : Dev nD) (h : S4096x256x64.ShapeCasts S16x256x256x64) :
    Pipeline.afterTail₀ cfgs (dats m) 0 (V0 m) [hostOps1] c main_v4
      = shapeCast S16x256x256x64 ((dats m 0 c).arrAt 6 cfg0.N) h := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.tc.devRef main_v3)
      = (dats m 0 c).arrAt 6 cfg0.N :=
    Pipeline.withArrays_arr spec0 launch0.win.arr_inj c (V0 m c) (fun w => (dats m 0 c).arrAt w (cfgs 0).N) 6
  funext i
  rw [hw]
  rfl

theorem wxArr_eq (c : Dev nD) : wxArr m c = m ((c.tc : Thread nD τ).loc main_arg3) := V_main_arg3 m c
theorem wtArr_eq (c : Dev nD) : wtArr m c = m ((c.tc : Thread nD τ).loc main_arg4) := V_main_arg4 m c
theorem bArr_eq (c : Dev nD) : bArr m c = m ((c.tc : Thread nD τ).loc main_arg5) := V_main_arg5 m c

/-- The result buffer after the program is 'fullOut' of the six arguments. -/
theorem result_value (c : Dev nD) :
    Pipeline.afterTail₀ cfgs (dats m) 0 (V0 m) [hostOps1] c main_v4
      = fullOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  rw [tail_value m c (by decide), region_value, xArr_eq m c (by decide), xgArr_eq m c (by decide), tgArr_eq m c (by decide),
    wxArr_eq, wtArr_eq, bArr_eq]
  exact flatOut_reshape _ _ _ _ _ _ _ _ _ _

/-- The program's run with its result named: every weakly fair execution ends with the result buffer at 'fullOut' of
    the arguments and the arguments as they were. -/
theorem run : θ_run defs (onTc (τ := τ) (main (F := Ideal))) ⟨m, fun _ => 0, ρ⟩ (fun r => ∀ c : Dev nD,
      r.2.mem ((c.tc : Thread nD τ).loc main_v4)
        = fullOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v4 (Pipeline.mem_restRefs_of main_v4 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Array

end
-- ==== Proof.RefPoint.lean ====
/-
  The reference program's result, read element by element. Its run ends with the result buffer at a
  composed term of the argument arrays: for each grid the nine Legendre values built by Bonnet's
  recurrence on whole [16,256,256] arrays, each given a trailing unit axis and the nine laid side by
  side along it, that [16,256,256,9] array contracted with a [64,9] weight matrix over the last axis
  (a sum over the nine degrees), the two products added, multiplied by x, the bias added along the
  last axis, and tanh taken. Every one of these operations acts on an element from elements at the
  same leading coordinates, so at (b, i, j, w) the term is the output element 'cell' of x[b,i,j,w],
  x_grid[b,i,j], t_grid[b,i,j], row w of each weight matrix and bias[w]: the function 'fullOut'.
-/
import proofs.«414161_j17927193494221_3_alg».proof.Proof.ReferenceRun
import proofs.«414161_j17927193494221_3_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.ReferenceIdeal.Point

open Idealize.ShloMosaic Idealize.ShloMosaic.ValueIdx Idealize.ShloMosaic.StableHlo Cert.ReferenceIdeal Cert.ReferenceIdeal.Value Cert.Legendre

/-! ## Bonnet's recurrence on whole arrays, read at an index -/

/-- One step of the recurrence on [16,256,256] arrays — ((a · x) · p − b · q) / n with the three small integers
    splat from scalars — is 'step' of the elements at the index. -/
theorem bonnet_apply (h : S_.BroadcastsInDim S16x256x256 (![] : Fin 0 → Fin S16x256x256.rank)) (a b n : BitVec 32)
    (x p q : FVec Ideal S16x256x256 .f32) (i : S16x256x256.Idx) :
    Host.divf (F := Ideal)
        (subf (mulf (mulf (broadcastInDim S16x256x256 ![] h (constant (F := Ideal) S_ .f32 a)) x) p)
          (mulf (broadcastInDim S16x256x256 ![] h (constant (F := Ideal) S_ .f32 b)) q))
        (broadcastInDim S16x256x256 ![] h (constant (F := Ideal) S_ .f32 n)) i
      = step a b n (x i) (p i) (q i) := rfl

/-! ## The named Legendre arrays of the run, read at an index -/

theorem main_v0_apply (V0 : Valuation τ sig (Elt Ideal)) (i : S16x256x256.Idx) :
    (res_main_v0 V0 : S16x256x256.Idx → EReal) i = P0 := rfl

theorem main_v8_apply (V0 : Valuation τ sig (Elt Ideal)) (i : S16x256x256.Idx) :
    (res_main_v8 V0 : S16x256x256.Idx → EReal) i = P2 ((V0 (Proc.devRef .tc main_arg1)) i) := by
  unfold res_main_v8 P2
  refine (bonnet_apply _ _ _ _ _ _ _ i).trans ?_
  rw [main_v0_apply]

theorem main_v16_apply (V0 : Valuation τ sig (Elt Ideal)) (i : S16x256x256.Idx) :
    (res_main_v16 V0 : S16x256x256.Idx → EReal) i = P3 ((V0 (Proc.devRef .tc main_arg1)) i) := by
  unfold res_main_v16 P3
  refine (bonnet_apply _ _ _ _ _ _ _ i).trans ?_
  rw [main_v8_apply]

theorem main_v24_apply (V0 : Valuation τ sig (Elt Ideal)) (i : S16x256x256.Idx) :
    (res_main_v24 V0 : S16x256x256.Idx → EReal) i = P4 ((V0 (Proc.devRef .tc main_arg1)) i) := by
  unfold res_main_v24 P4
  refine (bonnet_apply _ _ _ _ _ _ _ i).trans ?_
  rw [main_v16_apply, main_v8_apply]

theorem main_v32_apply (V0 : Valuation τ sig (Elt Ideal)) (i : S16x256x256.Idx) :
    (res_main_v32 V0 : S16x256x256.Idx → EReal) i = P5 ((V0 (Proc.devRef .tc main_arg1)) i) := by
  unfold res_main_v32 P5
  refine (bonnet_apply _ _ _ _ _ _ _ i).trans ?_
  rw [main_v24_apply, main_v16_apply]

theorem main_v40_apply (V0 : Valuation τ sig (Elt Ideal)) (i : S16x256x256.Idx) :
    (res_main_v40 V0 : S16x256x256.Idx → EReal) i = P6 ((V0 (Proc.devRef .tc main_arg1)) i) := by
  unfold res_main_v40 P6
  refine (bonnet_apply _ _ _ _ _ _ _ i).trans ?_
  rw [main_v32_apply, main_v24_apply]

theorem main_v48_apply (V0 : Valuation τ sig (Elt Ideal)) (i : S16x256x256.Idx) :
    (res_main_v48 V0 : S16x256x256.Idx → EReal) i = P7 ((V0 (Proc.devRef .tc main_arg1)) i) := by
  unfold res_main_v48 P7
  refine (bonnet_apply _ _ _ _ _ _ _ i).trans ?_
  rw [main_v40_apply, main_v32_apply]

theorem main_v67_apply (V0 : Valuation τ sig (Elt Ideal)) (i : S16x256x256.Idx) :
    (res_main_v67 V0 : S16x256x256.Idx → EReal) i = P0 := rfl

theorem main_v75_apply (V0 : Valuation τ sig (Elt Ideal)) (i : S16x256x256.Idx) :
    (res_main_v75 V0 : S16x256x256.Idx → EReal) i = P2 ((V0 (Proc.devRef .tc main_arg2)) i) := by
  unfold res_main_v75 P2
  refine (bonnet_apply _ _ _ _ _ _ _ i).trans ?_
  rw [main_v67_apply]

theorem main_v83_apply (V0 : Valuation τ sig (Elt Ideal)) (i : S16x256x256.Idx) :
    (res_main_v83 V0 : S16x256x256.Idx → EReal) i = P3 ((V0 (Proc.devRef .tc main_arg2)) i) := by
  unfold res_main_v83 P3
  refine (bonnet_apply _ _ _ _ _ _ _ i).trans ?_
  rw [main_v75_apply]

theorem main_v91_apply (V0 : Valuation τ sig (Elt Ideal)) (i : S16x256x256.Idx) :
    (res_main_v91 V0 : S16x256x256.Idx → EReal) i = P4 ((V0 (Proc.devRef .tc main_arg2)) i) := by
  unfold res_main_v91 P4
  refine (bonnet_apply _ _ _ _ _ _ _ i).trans ?_
  rw [main_v83_apply, main_v75_apply]

theorem main_v99_apply (V0 : Valuation τ sig (Elt Ideal)) (i : S16x256x256.Idx) :
    (res_main_v99 V0 : S16x256x256.Idx → EReal) i = P5 ((V0 (Proc.devRef .tc main_arg2)) i) := by
  unfold res_main_v99 P5
  refine (bonnet_apply _ _ _ _ _ _ _ i).trans ?_
  rw [main_v91_apply, main_v83_apply]

theorem main_v107_apply (V0 : Valuation τ sig (Elt Ideal)) (i : S16x256x256.Idx) :
    (res_main_v107 V0 : S16x256x256.Idx → EReal) i = P6 ((V0 (Proc.devRef .tc main_arg2)) i) := by
  unfold res_main_v107 P6
  refine (bonnet_apply _ _ _ _ _ _ _ i).trans ?_
  rw [main_v99_apply, main_v91_apply]

theorem main_v115_apply (V0 : Valuation τ sig (Elt Ideal)) (i : S16x256x256.Idx) :
    (res_main_v115 V0 : S16x256x256.Idx → EReal) i = P7 ((V0 (Proc.devRef .tc main_arg2)) i) := by
  unfold res_main_v115 P7
  refine (bonnet_apply _ _ _ _ _ _ _ i).trans ?_
  rw [main_v107_apply, main_v99_apply]

/-! ## The nine arrays laid side by side along a trailing axis -/

/-- Piece k of a concatenation along the last axis into [16,256,256,9] whose pieces before it have extent one each,
    itself an array given a trailing unit axis, read at (b, i, j, d) with d = k: the array at (b, i, j). -/
theorem unit_piece {α : Type} (xs : List ((s : Shape) × (s.Idx → α)))
    (hc : Shape.Concatenates (xs.map (·.1)) S16x256x256x9 3) (k : Nat) (hk : k < xs.length)
    (hb : S16x256x256.BroadcastsInDim S16x256x256x1 (![0, 1, 2] : Fin 3 → Fin S16x256x256x1.rank))
    (A : S16x256x256.Idx → α)
    (hxk : xs[k] = ⟨S16x256x256x1, broadcastInDim S16x256x256x1 ![0, 1, 2] hb A⟩)
    (hpre : (((xs.take k).map (·.1)).map fun s =>
      if h : s.rank = S16x256x256x9.rank then s.size ((3 : Fin S16x256x256x9.rank).cast h.symm) else 0).sum = k)
    (b : Fin 16) (i : Fin 256) (j : Fin 256) (d : Fin 9) (hd : d.val = k) :
    concatenate S16x256x256x9 3 xs hc (ix4 b i j d) = A (ix3 b i j) := by
  refine (concatenate_apply_piece 3 xs hc (ix4 b i j d) k hk S16x256x256x1 _ hxk rfl k hpre
    (ix4 b i j (0 : Fin 1)) ?_ ?_).trans ?_
  · intro c hc3
    match c with
    | ⟨0, _⟩ => rfl
    | ⟨1, _⟩ => rfl
    | ⟨2, _⟩ => rfl
    | ⟨3, _⟩ => exact absurd rfl hc3
  · show k + 0 = d.val
    omega
  · refine broadcastInDim_apply _ hb A _ (ix3 b i j) fun a => ?_
    match a with
    | ⟨0, _⟩ => rfl
    | ⟨1, _⟩ => rfl
    | ⟨2, _⟩ => rfl

/-- Nine arrays, each given a trailing unit axis and the nine laid side by side along it, read at (b, i, j, d):
    the d-th array at (b, i, j). -/
theorem stack_apply {α : Type}
    (hb : S16x256x256.BroadcastsInDim S16x256x256x1 (![0, 1, 2] : Fin 3 → Fin S16x256x256x1.rank))
    (hc : Shape.Concatenates [S16x256x256x1, S16x256x256x1, S16x256x256x1, S16x256x256x1, S16x256x256x1,
      S16x256x256x1, S16x256x256x1, S16x256x256x1, S16x256x256x1] S16x256x256x9 3)
    (A0 A1 A2 A3 A4 A5 A6 A7 A8 : S16x256x256.Idx → α) (b : Fin 16) (i : Fin 256) (j : Fin 256) (d : Fin 9) :
    concatenate S16x256x256x9 3
        [⟨S16x256x256x1, broadcastInDim S16x256x256x1 ![0, 1, 2] hb A0⟩,
         ⟨S16x256x256x1, broadcastInDim S16x256x256x1 ![0, 1, 2] hb A1⟩,
         ⟨S16x256x256x1, broadcastInDim S16x256x256x1 ![0, 1, 2] hb A2⟩,
         ⟨S16x256x256x1, broadcastInDim S16x256x256x1 ![0, 1, 2] hb A3⟩,
         ⟨S16x256x256x1, broadcastInDim S16x256x256x1 ![0, 1, 2] hb A4⟩,
         ⟨S16x256x256x1, broadcastInDim S16x256x256x1 ![0, 1, 2] hb A5⟩,
         ⟨S16x256x256x1, broadcastInDim S16x256x256x1 ![0, 1, 2] hb A6⟩,
         ⟨S16x256x256x1, broadcastInDim S16x256x256x1 ![0, 1, 2] hb A7⟩,
         ⟨S16x256x256x1, broadcastInDim S16x256x256x1 ![0, 1, 2] hb A8⟩] hc (ix4 b i j d)
      = ![A0 (ix3 b i j), A1 (ix3 b i j), A2 (ix3 b i j), A3 (ix3 b i j), A4 (ix3 b i j), A5 (ix3 b i j),
          A6 (ix3 b i j), A7 (ix3 b i j), A8 (ix3 b i j)] d := by
  match d with
  | ⟨0, _⟩ => exact unit_piece _ _ 0 (by show 0 < 9; decide) hb A0 rfl rfl b i j _ rfl
  | ⟨1, _⟩ => exact unit_piece _ _ 1 (by show 1 < 9; decide) hb A1 rfl rfl b i j _ rfl
  | ⟨2, _⟩ => exact unit_piece _ _ 2 (by show 2 < 9; decide) hb A2 rfl rfl b i j _ rfl
  | ⟨3, _⟩ => exact unit_piece _ _ 3 (by show 3 < 9; decide) hb A3 rfl rfl b i j _ rfl
  | ⟨4, _⟩ => exact unit_piece _ _ 4 (by show 4 < 9; decide) hb A4 rfl rfl b i j _ rfl
  | ⟨5, _⟩ => exact unit_piece _ _ 5 (by show 5 < 9; decide) hb A5 rfl rfl b i j _ rfl
  | ⟨6, _⟩ => exact unit_piece _ _ 6 (by show 6 < 9; decide) hb A6 rfl rfl b i j _ rfl
  | ⟨7, _⟩ => exact unit_piece _ _ 7 (by show 7 < 9; decide) hb A7 rfl rfl b i j _ rfl
  | ⟨8, _⟩ => exact unit_piece _ _ 8 (by show 8 < 9; decide) hb A8 rfl rfl b i j _ rfl

/-! ## The contraction over the nine degrees -/

/-- The dimension numbers of the two products: the left operand's last axis against the right operand's last axis. -/
abbrev D9 : DotDims S16x256x256x9 S64x9 S16x256x256x64 := dot_S16x256x256x9_S64x9_S16x256x256x64_3_1_012_0_n_n

theorem lhs_D9_0 (y : S16x256x256x64.Idx) (k : D9.contr.Idx) : (D9.lhsIdx y k 0).val = (y 0).val := rfl
theorem lhs_D9_1 (y : S16x256x256x64.Idx) (k : D9.contr.Idx) : (D9.lhsIdx y k 1).val = (y 1).val := rfl
theorem lhs_D9_2 (y : S16x256x256x64.Idx) (k : D9.contr.Idx) : (D9.lhsIdx y k 2).val = (y 2).val := rfl
theorem lhs_D9_3 (y : S16x256x256x64.Idx) (k : D9.contr.Idx) :
    (D9.lhsIdx y k 3).val = (k ⟨0, by decide⟩).val := rfl
theorem rhs_D9_0 (y : S16x256x256x64.Idx) (k : D9.contr.Idx) : (D9.rhsIdx y k 0).val = (y 3).val := rfl
theorem rhs_D9_1 (y : S16x256x256x64.Idx) (k : D9.contr.Idx) :
    (D9.rhsIdx y k 1).val = (k ⟨0, by decide⟩).val := rfl

/-- The product at (b, i, j, w): the sum over the nine degrees d of the left operand at (b, i, j, d) times the right
    operand at (w, d). -/
theorem dot_apply (L : FVec Ideal S16x256x256x9 .f32) (R : FVec Ideal S64x9 .f32)
    (b : Fin 16) (i : Fin 256) (j : Fin 256) (w : Fin 64) :
    Host.dotGeneral (F := Ideal) D9 none L R (ix4 b i j w) = ∑ d : Fin 9, L (ix4 b i j d) * R (ix2 w d) := by
  refine (Ideal.dotGeneral_apply D9 none .single L R (ix4 b i j w)).trans ?_
  refine (Equiv.sum_comp (contrEquiv1 D9 9 rfl rfl).symm
    (fun k => L (D9.lhsIdx (ix4 b i j w) k) * R (D9.rhsIdx (ix4 b i j w) k))).symm.trans ?_
  refine Finset.sum_congr rfl fun d _ => ?_
  have hk : (((contrEquiv1 D9 9 rfl rfl).symm d) ⟨0, by decide⟩ : ℕ) = d.val := contrEquiv1_symm_val D9 9 rfl rfl d
  have hl : D9.lhsIdx (ix4 b i j w) ((contrEquiv1 D9 9 rfl rfl).symm d) = ix4 b i j d := by
    funext a
    refine Fin.ext ?_
    match a with
    | ⟨0, _⟩ => exact lhs_D9_0 _ _
    | ⟨1, _⟩ => exact lhs_D9_1 _ _
    | ⟨2, _⟩ => exact lhs_D9_2 _ _
    | ⟨3, _⟩ => exact (lhs_D9_3 _ _).trans hk
  have hr : D9.rhsIdx (ix4 b i j w) ((contrEquiv1 D9 9 rfl rfl).symm d) = ix2 w d := by
    funext a
    refine Fin.ext ?_
    match a with
    | ⟨0, _⟩ => exact rhs_D9_0 _ _
    | ⟨1, _⟩ => exact (rhs_D9_1 _ _).trans hk
  show L (D9.lhsIdx (ix4 b i j w) ((contrEquiv1 D9 9 rfl rfl).symm d))
      * R (D9.rhsIdx (ix4 b i j w) ((contrEquiv1 D9 9 rfl rfl).symm d)) = L (ix4 b i j d) * R (ix2 w d)
  rw [hl, hr]

/-! ## The bias along the last axis -/

/-- The [64] bias given three leading unit axes and then spread over [16,256,256,64], read at (b, i, j, w): bias[w]. -/
theorem bias_apply {α : Type} (h1 : S64.BroadcastsInDim S1x1x1x64 (![3] : Fin 1 → Fin S1x1x1x64.rank))
    (h2 : S1x1x1x64.BroadcastsInDim S16x256x256x64 (![0, 1, 2, 3] : Fin 4 → Fin S16x256x256x64.rank))
    (B : S64.Idx → α) (b : Fin 16) (i : Fin 256) (j : Fin 256) (w : Fin 64) :
    broadcastInDim S16x256x256x64 ![0, 1, 2, 3] h2 (broadcastInDim S1x1x1x64 ![3] h1 B) (ix4 b i j w) = B (ix1 w) := by
  refine (broadcastInDim_apply _ h2 _ (ix4 b i j w) (ix4 (0 : Fin 1) (0 : Fin 1) (0 : Fin 1) w) fun a => ?_).trans ?_
  · match a with
    | ⟨0, _⟩ => rfl
    | ⟨1, _⟩ => rfl
    | ⟨2, _⟩ => rfl
    | ⟨3, _⟩ => rfl
  · refine broadcastInDim_apply _ h1 B _ (ix1 w) fun a => ?_
    match a with
    | ⟨0, _⟩ => rfl

/-! ## The whole term at an index -/

/-- The host's tanh at an index is the extended reals' tanh of the element. -/
theorem tanh_apply {s : Shape} (a : FVec Ideal s .f32) (i : s.Idx) : Host.tanh (F := Ideal) a i = Ideal.tanh (a i) := rfl

/-- The term's shape over arbitrary arrays, at (b, i, j, w): two stacks of nine arrays contracted with the two weight
    matrices, the products added, times x, plus the bias, under tanh. -/
theorem point_apply
    (hb : S16x256x256.BroadcastsInDim S16x256x256x1 (![0, 1, 2] : Fin 3 → Fin S16x256x256x1.rank))
    (hc : Shape.Concatenates [S16x256x256x1, S16x256x256x1, S16x256x256x1, S16x256x256x1, S16x256x256x1,
      S16x256x256x1, S16x256x256x1, S16x256x256x1, S16x256x256x1] S16x256x256x9 3)
    (h1 : S64.BroadcastsInDim S1x1x1x64 (![3] : Fin 1 → Fin S1x1x1x64.rank))
    (h2 : S1x1x1x64.BroadcastsInDim S16x256x256x64 (![0, 1, 2, 3] : Fin 4 → Fin S16x256x256x64.rank))
    (X : FVec Ideal S16x256x256x64 .f32)
    (A0 A1 A2 A3 A4 A5 A6 A7 A8 T0 T1 T2 T3 T4 T5 T6 T7 T8 : FVec Ideal S16x256x256 .f32)
    (WX WT : FVec Ideal S64x9 .f32) (B : FVec Ideal S64 .f32)
    (b : Fin 16) (i : Fin 256) (j : Fin 256) (w : Fin 64) :
    Host.tanh (F := Ideal) (addf (mulf X (addf
        (Host.dotGeneral (F := Ideal) D9 none (concatenate S16x256x256x9 3
         [⟨S16x256x256x1, broadcastInDim S16x256x256x1 ![0, 1, 2] hb A0⟩,
          ⟨S16x256x256x1, broadcastInDim S16x256x256x1 ![0, 1, 2] hb A1⟩,
          ⟨S16x256x256x1, broadcastInDim S16x256x256x1 ![0, 1, 2] hb A2⟩,
          ⟨S16x256x256x1, broadcastInDim S16x256x256x1 ![0, 1, 2] hb A3⟩,
          ⟨S16x256x256x1, broadcastInDim S16x256x256x1 ![0, 1, 2] hb A4⟩,
          ⟨S16x256x256x1, broadcastInDim S16x256x256x1 ![0, 1, 2] hb A5⟩,
          ⟨S16x256x256x1, broadcastInDim S16x256x256x1 ![0, 1, 2] hb A6⟩,
          ⟨S16x256x256x1, broadcastInDim S16x256x256x1 ![0, 1, 2] hb A7⟩,
          ⟨S16x256x256x1, broadcastInDim S16x256x256x1 ![0, 1, 2] hb A8⟩] hc) WX)
        (Host.dotGeneral (F := Ideal) D9 none (concatenate S16x256x256x9 3
         [⟨S16x256x256x1, broadcastInDim S16x256x256x1 ![0, 1, 2] hb T0⟩,
          ⟨S16x256x256x1, broadcastInDim S16x256x256x1 ![0, 1, 2] hb T1⟩,
          ⟨S16x256x256x1, broadcastInDim S16x256x256x1 ![0, 1, 2] hb T2⟩,
          ⟨S16x256x256x1, broadcastInDim S16x256x256x1 ![0, 1, 2] hb T3⟩,
          ⟨S16x256x256x1, broadcastInDim S16x256x256x1 ![0, 1, 2] hb T4⟩,
          ⟨S16x256x256x1, broadcastInDim S16x256x256x1 ![0, 1, 2] hb T5⟩,
          ⟨S16x256x256x1, broadcastInDim S16x256x256x1 ![0, 1, 2] hb T6⟩,
          ⟨S16x256x256x1, broadcastInDim S16x256x256x1 ![0, 1, 2] hb T7⟩,
          ⟨S16x256x256x1, broadcastInDim S16x256x256x1 ![0, 1, 2] hb T8⟩] hc) WT)))
        (broadcastInDim S16x256x256x64 ![0, 1, 2, 3] h2 (broadcastInDim S1x1x1x64 ![3] h1 B))) (ix4 b i j w)
      = Ideal.tanh (X (ix4 b i j w)
          * ((∑ d : Fin 9, ![A0 (ix3 b i j), A1 (ix3 b i j), A2 (ix3 b i j), A3 (ix3 b i j), A4 (ix3 b i j), A5 (ix3 b i j), A6 (ix3 b i j), A7 (ix3 b i j), A8 (ix3 b i j)] d * WX (ix2 w d))
            + ∑ d : Fin 9, ![T0 (ix3 b i j), T1 (ix3 b i j), T2 (ix3 b i j), T3 (ix3 b i j), T4 (ix3 b i j), T5 (ix3 b i j), T6 (ix3 b i j), T7 (ix3 b i j), T8 (ix3 b i j)] d * WT (ix2 w d))
          + B (ix1 w)) := by
  refine (tanh_apply _ _).trans ?_
  rw [addf_apply, mulf_apply, addf_apply, dot_apply, dot_apply, bias_apply]
  refine congrArg Ideal.tanh (congrArg (· + B (ix1 w)) (congrArg (X (ix4 b i j w) * ·) (congrArg₂ (· + ·)
    (Finset.sum_congr rfl fun d _ => congrArg (· * WX (ix2 w d)) (stack_apply hb hc A0 A1 A2 A3 A4 A5 A6 A7 A8 b i j d))
    (Finset.sum_congr rfl fun d _ => congrArg (· * WT (ix2 w d)) (stack_apply hb hc T0 T1 T2 T3 T4 T5 T6 T7 T8 b i j d)))))

/-- The reference's result term is 'fullOut' of the six argument arrays. -/
theorem result_eq (V0 : Valuation τ sig (Elt Ideal)) :
    (val4 V0 (Proc.devRef .tc main_v141) : S16x256x256x64.Idx → EReal)
      = fullOut (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) := by
  refine (val4_main_v141 V0).trans ?_
  funext y
  obtain ⟨b, i, j, w, rfl⟩ : ∃ (b : Fin 16) (i : Fin 256) (j : Fin 256) (w : Fin 64), y = ix4 b i j w :=
    ⟨y 0, y 1, y 2, y 3, eq_ix4 y⟩
  refine (point_apply _ _ _ _ _ _ _ _ _ _ _ _ _ _ _ _ _ _ _ _ _ _ _ _ _ _ b i j w).trans ?_
  rw [bonnet_apply, bonnet_apply, main_v0_apply, main_v8_apply, main_v16_apply, main_v24_apply, main_v32_apply,
    main_v40_apply, main_v48_apply, main_v67_apply, main_v75_apply, main_v83_apply, main_v91_apply, main_v99_apply,
    main_v107_apply, main_v115_apply]
  rfl

end Cert.ReferenceIdeal.Point

end
-- ==== Proof.lean ====
/-
  The kernel against its reference, over the extended reals.

  Both programs compute, at batch b, row i, column j and channel w,
      tanh ( x[b,i,j,w] · ( Σ_d P_d(x_grid[b,i,j]) · weights_x[w,d] + Σ_d P_d(t_grid[b,i,j]) · weights_t[w,d] ) + bias[w] ),
  P_0 … P_8 the Legendre values by Bonnet's recurrence, spelt the same way in both: the same products in
  the same order, exact quotients by 2 … 8, the same binary32 words ('fullOut', Proof/Spec.lean). The
  kernel merges the two leading axes, computes block by block and row chunk by row chunk with the sum
  over the nine degrees as a batched matrix product, and splits the axes again (Proof/KernelPoint.lean,
  KernelTrip.lean, KernelArray.lean); the reference works on whole arrays with the sum as a contraction of
  the stacked values against the weights (Proof/RefPoint.lean, over the reference's run read back in
  Proof/ReferenceRun.lean). No law is used that could fail at an infinity — both sides are the same
  expression of the same entries — so the precondition is not opened. The three frames are the
  generated ones; the idealization rewrote nothing, so there is nothing to preserve.
-/
import proofs.«414161_j17927193494221_3_alg».proof.Defs
import proofs.«414161_j17927193494221_3_alg».proof.Proof.Gen.Kernel
import proofs.«414161_j17927193494221_3_alg».proof.Proof.Gen.Kernel.Frame
import proofs.«414161_j17927193494221_3_alg».proof.Proof.Gen.KernelIdeal
import proofs.«414161_j17927193494221_3_alg».proof.Proof.Gen.KernelIdeal.Frame
import proofs.«414161_j17927193494221_3_alg».proof.Proof.Gen.ReferenceIdeal
import proofs.«414161_j17927193494221_3_alg».proof.Proof.Gen.Pre_finite_inputs
import proofs.«414161_j17927193494221_3_alg».proof.Proof.KernelArray
import proofs.«414161_j17927193494221_3_alg».proof.Proof.RefPoint
import Idealize.ShloMosaic.Adequacy
import Idealize.ShloMosaic.Init

noncomputable section

namespace Cert.Proof

open Idealize.ShloMosaic Idealize.ShloMosaic.TcCoe Idealize.SL.Sem Cert.Legendre

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at 'fullOut' of arguments that agree. -/
theorem algebraic : Cert.algebraic_KernelIdeal_ReferenceIdeal := by
  intro m ρ m' ρ' _ hagree
  refine ⟨fun c => fullOut (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Array.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val4_main_v141 (StableHlo.launchContents m' c)).symm.trans
    ((Cert.ReferenceIdeal.Point.result_eq (StableHlo.launchContents m' c)).trans ?_)
  show fullOut (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
